-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024x128 : Shape := ⟨4, ![1, 1024, 1024, 128]⟩
abbrev S1x128x1 : Shape := ⟨3, ![1, 128, 1]⟩
abbrev S1x1x128 : Shape := ⟨3, ![1, 1, 128]⟩
abbrev S1x128x128x128 : Shape := ⟨4, ![1, 128, 128, 128]⟩
abbrev S1x128x128 : Shape := ⟨3, ![1, 128, 128]⟩
abbrev S1x66 : Shape := ⟨2, ![1, 66]⟩
abbrev S66 : Shape := ⟨1, ![66]⟩
abbrev S1x1x1x66 : Shape := ⟨4, ![1, 1, 1, 66]⟩
abbrev S1x6 : Shape := ⟨2, ![1, 6]⟩
abbrev S6 : Shape := ⟨1, ![6]⟩
abbrev S1x1x1x6 : Shape := ⟨4, ![1, 1, 1, 6]⟩
abbrev S1x128x128x1 : Shape := ⟨4, ![1, 128, 128, 1]⟩
abbrev S1x128x128x66 : Shape := ⟨4, ![1, 128, 128, 66]⟩
abbrev S16384x66 : Shape := ⟨2, ![16384, 66]⟩
abbrev S1x128x128x6 : Shape := ⟨4, ![1, 128, 128, 6]⟩
abbrev S16384x6 : Shape := ⟨2, ![16384, 6]⟩
abbrev S16384x138 : Shape := ⟨2, ![16384, 138]⟩
abbrev S132x128 : Shape := ⟨2, ![132, 128]⟩
abbrev S6x128 : Shape := ⟨2, ![6, 128]⟩
abbrev S138x128 : Shape := ⟨2, ![138, 128]⟩
abbrev S1x128 : Shape := ⟨2, ![1, 128]⟩
abbrev S128 : Shape := ⟨1, ![128]⟩
abbrev S16384x128 : Shape := ⟨2, ![16384, 128]⟩
abbrev S1x1x1x128 : Shape := ⟨4, ![1, 1, 1, 128]⟩

abbrev nBuf : Space → Nat
  | .hbm => 17
  | .vmem => 23
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1, .i32⟩
  | .hbm, ⟨7, _⟩ => ⟨S1x1x1024, .i32⟩
  | .hbm, ⟨8, _⟩ => ⟨S1x1024x1, .i32⟩
  | .hbm, ⟨9, _⟩ => ⟨S1x1x1024, .i32⟩
  | .hbm, ⟨10, _⟩ => ⟨S1x1024x1, .i32⟩
  | .hbm, ⟨11, _⟩ => ⟨S1x1x1024, .i32⟩
  | .hbm, ⟨12, _⟩ => ⟨S1x1024x1, .i32⟩
  | .hbm, ⟨13, _⟩ => ⟨S1x1x1024, .i32⟩
  | .hbm, ⟨14, _⟩ => ⟨S1x1024x1, .i32⟩
  | .hbm, ⟨15, _⟩ => ⟨S1x1x1024, .i32⟩
  | .hbm, ⟨16, _⟩ => ⟨S1x1024x1024x128, .f32⟩
  | .local _ .vmem, ⟨0, _⟩ => ⟨S1x128x1, .i32⟩
  | .local _ .vmem, ⟨1, _⟩ => ⟨S1x128x1, .i32⟩
  | .local _ .vmem, ⟨2, _⟩ => ⟨S1x1x128, .i32⟩
  | .local _ .vmem, ⟨3, _⟩ => ⟨S1x1x128, .i32⟩
  | .local _ .vmem, ⟨4, _⟩ => ⟨S1x128x1, .i32⟩
  | .local _ .vmem, ⟨5, _⟩ => ⟨S1x128x1, .i32⟩
  | .local _ .vmem, ⟨6, _⟩ => ⟨S1x1x128, .i32⟩
  | .local _ .vmem, ⟨7, _⟩ => ⟨S1x1x128, .i32⟩
  | .local _ .vmem, ⟨8, _⟩ => ⟨S1x128x1, .i32⟩
  | .local _ .vmem, ⟨9, _⟩ => ⟨S1x128x1, .i32⟩
  | .local _ .vmem, ⟨10, _⟩ => ⟨S1x1x128, .i32⟩
  | .local _ .vmem, ⟨11, _⟩ => ⟨S1x1x128, .i32⟩
  | .local _ .vmem, ⟨12, _⟩ => ⟨S1x128x1, .i32⟩
  | .local _ .vmem, ⟨13, _⟩ => ⟨S1x128x1, .i32⟩
  | .local _ .vmem, ⟨14, _⟩ => ⟨S1x1x128, .i32⟩
  | .local _ .vmem, ⟨15, _⟩ => ⟨S1x1x128, .i32⟩
  | .local _ .vmem, ⟨16, _⟩ => ⟨S1x128x1, .i32⟩
  | .local _ .vmem, ⟨17, _⟩ => ⟨S1x128x1, .i32⟩
  | .local _ .vmem, ⟨18, _⟩ => ⟨S1x1x128, .i32⟩
  | .local _ .vmem, ⟨19, _⟩ => ⟨S1x1x128, .i32⟩
  | .local _ .vmem, ⟨20, _⟩ => ⟨S139x128, .f32⟩
  | .local _ .vmem, ⟨21, _⟩ => ⟨S1x128x128x128, .f32⟩
  | .local _ .vmem, ⟨22, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S139x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x128x1_S1x128x128 : S1x128x1.Broadcasts S1x128x128
  broadcasts_S1x1x128_S1x128x128 : S1x1x128.Broadcasts S1x128x128
  iota_S1x66_d1_w32 : S1x66.Iotas .tc 32 [1]
  shapeCasts_S1x66_S66 : S1x66.ShapeCasts S66
  shapeCasts_S66_S1x1x1x66 : S66.ShapeCasts S1x1x1x66
  iota_S1x6_d1_w32 : S1x6.Iotas .tc 32 [1]
  shapeCasts_S1x6_S6 : S1x6.ShapeCasts S6
  shapeCasts_S6_S1x1x1x6 : S6.ShapeCasts S1x1x1x6
  shapeCasts_S1x128x128_S1x128x128x1 : S1x128x128.ShapeCasts S1x128x128x1
  broadcasts_S1x128x128x1_S1x128x128x66 : S1x128x128x1.Broadcasts S1x128x128x66
  broadcasts_S1x1x1x66_S1x128x128x66 : S1x1x1x66.Broadcasts S1x128x128x66
  natLt_1_32 : 1 < 32
  bitsLt_bf16_f32 : FTy.bits .bf16 < FTy.bits .f32
  shapeCasts_S1x128x128x66_S16384x66 : S1x128x128x66.ShapeCasts S16384x66
  broadcasts_S1x128x128x1_S1x128x128x6 : S1x128x128x1.Broadcasts S1x128x128x6
  broadcasts_S1x1x1x6_S1x128x128x6 : S1x1x1x6.Broadcasts S1x128x128x6
  shapeCasts_S1x128x128x6_S16384x6 : S1x128x128x6.ShapeCasts S16384x6
  concatenates_S16384x66_S16384x66_S16384x6_S16384x138_d1 : Shape.Concatenates [S16384x66, S16384x66, S16384x6] S16384x138 1
  inb_S139x128_S139x128_0_0 : ∀ a, (![0, 0] : Fin 2 → Nat) a + S139x128.size a ≤ S139x128.size a
  h_S139x128 : 0 < S139x128.numel
  slices_S139x128_o0_0_S132x128 : S139x128.Slices ![0, 0] S132x128
  slices_S139x128_o133_0_S6x128 : S139x128.Slices ![133, 0] S6x128
  concatenates_S132x128_S6x128_S138x128_d0 : Shape.Concatenates [S132x128, S6x128] S138x128 0
  slices_S139x128_o132_0_S1x128 : S139x128.Slices ![132, 0] S1x128
  shapeCasts_S1x128_S128 : S1x128.ShapeCasts S128
  shapeCasts_S16384x128_S1x128x128x128 : S16384x128.ShapeCasts S1x128x128x128
  shapeCasts_S128_S1x1x1x128 : S128.ShapeCasts S1x1x1x128
  broadcasts_S1x128x128x1_S1x128x128x128 : S1x128x128x1.Broadcasts S1x128x128x128
  broadcasts_S1x1x1x128_S1x128x128x128 : S1x1x1x128.Broadcasts S1x128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  dot_S16384x138_S138x128_S16384x128_1_0_0_1_n_n_wf : DotDims.WF S16384x138 S138x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1.size a ≤ S1x1024x1.size a
  hwx0_0 : ∀ i : grid0.Coords, EltTy.bits .i32 = 32 ∨ (Rect.block (s := S1x1024x1) S1x128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S1x1x1024.size a
  hwx0_1 : ∀ i : grid0.Coords, EltTy.bits .i32 = 32 ∨ (Rect.block (s := S1x1x1024) S1x1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S1x1024x1.size a
  hwx0_2 : ∀ i : grid0.Coords, EltTy.bits .i32 = 32 ∨ (Rect.block (s := S1x1024x1) S1x128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x1024.size a
  hwx0_3 : ∀ i : grid0.Coords, EltTy.bits .i32 = 32 ∨ (Rect.block (s := S1x1x1024) S1x1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S1x1024x1.size a
  hwx0_4 : ∀ i : grid0.Coords, EltTy.bits .i32 = 32 ∨ (Rect.block (s := S1x1024x1) S1x128x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S1x1x1024.size a
  hwx0_5 : ∀ i : grid0.Coords, EltTy.bits .i32 = 32 ∨ (Rect.block (s := S1x1x1024) S1x1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S1x1024x1.size a
  hwx0_6 : ∀ i : grid0.Coords, EltTy.bits .i32 = 32 ∨ (Rect.block (s := S1x1024x1) S1x128x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S1x1x1024.size a
  hwx0_7 : ∀ i : grid0.Coords, EltTy.bits .i32 = 32 ∨ (Rect.block (s := S1x1x1024) S1x1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x1.size a ≤ S1x1024x1.size a
  hwx0_8 : ∀ i : grid0.Coords, EltTy.bits .i32 = 32 ∨ (Rect.block (s := S1x1024x1) S1x128x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S1x1x1024.size a
  hwx0_9 : ∀ i : grid0.Coords, EltTy.bits .i32 = 32 ∨ (Rect.block (s := S1x1x1024) S1x1x128.size (cc0_transform_9 i) (hinb0_9 i)).WholeWords (EltTy.packing .i32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S139x128.size a ≤ S139x128.size a
  hwx0_10 : ∀ i : grid0.Coords, EltTy.bits .f32 = 32 ∨ (Rect.block (s := S139x128) S139x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128x128.size a ≤ S1x1024x1024x128.size a
  hwx0_11 : ∀ i : grid0.Coords, EltTy.bits .f32 = 32 ∨ (Rect.block (s := S1x1024x1024x128) S1x128x128x128.size (cc0_transform_11 i) (hinb0_11 i)).WholeWords (EltTy.packing .f32)

variable [Facts₀]

def dot_S16384x138_S138x128_S16384x128_1_0_0_1_n_n : DotDims S16384x138 S138x128 S16384x128 where
  lhsContracting := [1]
  rhsContracting := [0]
  lhsNonContracting := [0]
  rhsNonContracting := [1]
  lhsBatch := []
  rhsBatch := []
  wf := dot_S16384x138_S138x128_S16384x128_1_0_0_1_n_n_wf

abbrev win0_0 : Pipeline.Window sig grid0 :=
  Pipeline.Window.ofSpec (Memref.whole main_v0) S1x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S139x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S66x128 : Shape := ⟨2, ![66, 128]⟩
abbrev S1x128 : Shape := ⟨2, ![1, 128]⟩
abbrev S128 : Shape := ⟨1, ![128]⟩
abbrev S6x128 : Shape := ⟨2, ![6, 128]⟩
abbrev S1x1024x1024x1 : Shape := ⟨4, ![1, 1024, 1024, 1]⟩
abbrev S1 : Shape := ⟨1, ![1]⟩
abbrev S1x1x1x1 : Shape := ⟨4, ![1, 1, 1, 1]⟩
abbrev S1x1024x1024x128 : Shape := ⟨4, ![1, 1024, 1024, 128]⟩
abbrev S1x1x1x128 : Shape := ⟨4, ![1, 1, 1, 128]⟩

abbrev nBuf : Space → Nat
  | .hbm => 166
  | .vmem => 0
  | .smem => 0
  | _ => 0

abbrev hbmTy0_0 (i : Nat) : BufTy := match i % 128 with
  | 0 => ⟨S1x1024, .i32⟩
  | 1 => ⟨S1x1024, .i32⟩
  | 2 => ⟨S1x1024, .i32⟩
  | 3 => ⟨S1x1024, .i32⟩
  | 4 => ⟨S1x1024, .i32⟩
  | 5 => ⟨S139x128, .f32⟩
  | 6 => ⟨S1x1024x1, .i32⟩
  | 7 => ⟨S1x1x1024, .i32⟩
  | 8 => ⟨S1x1024x1024, .i32⟩
  | 9 => ⟨S1x1024x1024, .i32⟩
  | 10 => ⟨S1x1024x1024, .i1⟩
  | 11 => ⟨S1x1024x1, .i32⟩
  | 12 => ⟨S1x1x1024, .i32⟩
  | 13 => ⟨S1x1024x1024, .i32⟩
  | 14 => ⟨S1x1024x1024, .i32⟩
  | 15 => ⟨S1x1024x1024, .i1⟩
  | 16 => ⟨S1x1024x1, .i32⟩
  | 17 => ⟨S1x1x1024, .i32⟩
  | 18 => ⟨S1x1024x1024, .i32⟩
  | 19 => ⟨S1x1024x1024, .i32⟩
  | 20 => ⟨S1x1024x1024, .i1⟩
  | 21 => ⟨S1x1024x1, .i32⟩
  | 22 => ⟨S1x1x1024, .i32⟩
  | 23 => ⟨S1x1024x1024, .i32⟩
  | 24 => ⟨S1x1024x1024, .i32⟩
  | 25 => ⟨S1x1024x1024, .i32⟩
  | 26 => ⟨S_, .i32⟩
  | 27 => ⟨S1x1024x1024, .i32⟩
  | 28 => ⟨S1x1024x1024, .i32⟩
  | 29 => ⟨S_, .i32⟩
  | 30 => ⟨S_, .i32⟩
  | 31 => ⟨S_, .i32⟩
  | 32 => ⟨S1x1024x1024, .i32⟩
  | 33 => ⟨S1x1024x1024, .i32⟩
  | 34 => ⟨S_, .i32⟩
  | 35 => ⟨S1x1024x1024, .i32⟩
  | 36 => ⟨S1x1024x1024, .i32⟩
  | 37 => ⟨S_, .i32⟩
  | 38 => ⟨S_, .i32⟩
  | 39 => ⟨S1x1024x1024, .i32⟩
  | 40 => ⟨S1x1024x1024, .i32⟩
  | 41 => ⟨S1x1024x1024, .i1⟩
  | 42 => ⟨S1x1024x1, .i32⟩
  | 43 => ⟨S1x1x1024, .i32⟩
  | 44 => ⟨S1x1024x1024, .i32⟩
  | 45 => ⟨S1x1024x1024, .i32⟩
  | 46 => ⟨S1x1024x1024, .i32⟩
  | 47 => ⟨S_, .i32⟩
  | 48 => ⟨S1x1024x1024, .i32⟩
  | 49 => ⟨S1x1024x1024, .i32⟩
  | 50 => ⟨S_, .i32⟩
  | 51 => ⟨S_, .i32⟩
  | 52 => ⟨S_, .i32⟩
  | 53 => ⟨S1x1024x1024, .i32⟩
  | 54 => ⟨S1x1024x1024, .i32⟩
  | 55 => ⟨S_, .i32⟩
  | 56 => ⟨S1x1024x1024, .i32⟩
  | 57 => ⟨S1x1024x1024, .i32⟩
  | 58 => ⟨S_, .i32⟩
  | 59 => ⟨S_, .i32⟩
  | 60 => ⟨S1x1024x1024, .i32⟩
  | 61 => ⟨S1x1024x1024, .i32⟩
  | 62 => ⟨S1x1024x1024, .i1⟩
  | 63 => ⟨S1x1024x1, .i32⟩
  | 64 => ⟨S1x1x1024, .i32⟩
  | 65 => ⟨S1x1024x1024, .i32⟩
  | 66 => ⟨S1x1024x1024, .i32⟩
  | 67 => ⟨S1x1024x1024, .i32⟩
  | 68 => ⟨S_, .i32⟩
  | 69 => ⟨S1x1024x1024, .i32⟩
  | 70 => ⟨S1x1024x1024, .i32⟩
  | 71 => ⟨S_, .i32⟩
  | 72 => ⟨S_, .i32⟩
  | 73 => ⟨S_, .i32⟩
  | 74 => ⟨S1x1024x1024, .i32⟩
  | 75 => ⟨S1x1024x1024, .i32⟩
  | 76 => ⟨S_, .i32⟩
  | 77 => ⟨S1x1024x1024, .i32⟩
  | 78 => ⟨S1x1024x1024, .i32⟩
  | 79 => ⟨S_, .i32⟩
  | 80 => ⟨S_, .i32⟩
  | 81 => ⟨S1x1024x1024, .i32⟩
  | 82 => ⟨S1x1024x1024, .i32⟩
  | 83 => ⟨S66x128, .f32⟩
  | 84 => ⟨S66x128, .f32⟩
  | 85 => ⟨S1x128, .f32⟩
  | 86 => ⟨S128, .f32⟩
  | 87 => ⟨S6x128, .f32⟩
  | 88 => ⟨S_, .i32⟩
  | 89 => ⟨S1x1024x1024, .i32⟩
  | 90 => ⟨S1x1024x1024, .i1⟩
  | 91 => ⟨S_, .i32⟩
  | 92 => ⟨S1x1024x1024, .i32⟩
  | 93 => ⟨S1x1024x1024, .i32⟩
  | 94 => ⟨S1x1024x1024, .i32⟩
  | 95 => ⟨S1x1024x1024x1, .i32⟩
  | 96 => ⟨S1, .i32⟩
  | 97 => ⟨S_, .i32⟩
  | 98 => ⟨S1x1024x1024x1, .i32⟩
  | 99 => ⟨S1x1024x1024x1, .i1⟩
  | 100 => ⟨S1x1x1x1, .i32⟩
  | 101 => ⟨S1x1024x1024x1, .i32⟩
  | 102 => ⟨S1x1024x1024x1, .i1⟩
  | 103 => ⟨S1x1024x1024x1, .i1⟩
  | 104 => ⟨S_, .i1⟩
  | 105 => ⟨S1x1024x1024, .i1⟩
  | 106 => ⟨S1x1024x1024x128, .f32⟩
  | 107 => ⟨S1x1024x1024x128, .i1⟩
  | 108 => ⟨S_, .f32⟩
  | 109 => ⟨S1x1024x1024x128, .f32⟩
  | 110 => ⟨S1x1024x1024x128, .f32⟩
  | 111 => ⟨S_, .i32⟩
  | 112 => ⟨S1x1024x1024, .i32⟩
  | 113 => ⟨S1x1024x1024, .i1⟩
  | 114 => ⟨S_, .i32⟩
  | 115 => ⟨S1x1024x1024, .i32⟩
  | 116 => ⟨S1x1024x1024, .i32⟩
  | 117 => ⟨S1x1024x1024, .i32⟩
  | 118 => ⟨S1x1024x1024x1, .i32⟩
  | 119 => ⟨S1, .i32⟩
  | 120 => ⟨S_, .i32⟩
  | 121 => ⟨S1x1024x1024x1, .i32⟩
  | 122 => ⟨S1x1024x1024x1, .i1⟩
  | 123 => ⟨S1x1x1x1, .i32⟩
  | 124 => ⟨S1x1024x1024x1, .i32⟩
  | 125 => ⟨S1x1024x1024x1, .i1⟩
  | 126 => ⟨S1x1024x1024x1, .i1⟩
  | 127 => ⟨S_, .i1⟩
  | _ => ⟨S1x1024, .i32⟩

abbrev hbmTy0_1 (i : Nat) : BufTy := match i % 128 with
  | 0 => ⟨S1x1024x1024, .i1⟩
  | 1 => ⟨S1x1024x1024x128, .f32⟩
  | 2 => ⟨S1x1024x1024x128, .i1⟩
  | 3 => ⟨S_, .f32⟩
  | 4 => ⟨S1x1024x1024x128, .f32⟩
  | 5 => ⟨S1x1024x1024x128, .f32⟩
  | 6 => ⟨S1x1024x1024x128, .f32⟩
  | 7 => ⟨S1x1024x1024x1, .i1⟩
  | 8 => ⟨S1x1024x1024x1, .f32⟩
  | 9 => ⟨S1x1x1x128, .f32⟩
  | 10 => ⟨S1x1024x1024x128, .f32⟩
  | 11 => ⟨S1x1024x1024x128, .f32⟩
  | 12 => ⟨S1x1024x1024x128, .f32⟩
  | 13 => ⟨S1x1024x1024x128, .f32⟩
  | 14 => ⟨S_, .i32⟩
  | 15 => ⟨S1x1024x1024, .i32⟩
  | 16 => ⟨S1x1024x1024, .i1⟩
  | 17 => ⟨S_, .i32⟩
  | 18 => ⟨S1x1024x1024, .i32⟩
  | 19 => ⟨S1x1024x1024, .i32⟩
  | 20 => ⟨S1x1024x1024, .i32⟩
  | 21 => ⟨S1x1024x1024x1, .i32⟩
  | 22 => ⟨S1, .i32⟩
  | 23 => ⟨S_, .i32⟩
  | 24 => ⟨S1x1024x1024x1, .i32⟩
  | 25 => ⟨S1x1024x1024x1, .i1⟩
  | 26 => ⟨S1x1x1x1, .i32⟩
  | 27 => ⟨S1x1024x1024x1, .i32⟩
  | 28 => ⟨S1x1024x1024x1, .i1⟩
  | 29 => ⟨S1x1024x1024x1, .i1⟩
  | 30 => ⟨S_, .i1⟩
  | 31 => ⟨S1x1024x1024, .i1⟩
  | 32 => ⟨S1x1024x1024x128, .f32⟩
  | 33 => ⟨S1x1024x1024x128, .i1⟩
  | 34 => ⟨S_, .f32⟩
  | 35 => ⟨S1x1024x1024x128, .f32⟩
  | 36 => ⟨S1x1024x1024x128, .f32⟩
  | 37 => ⟨S1x1024x1024x128, .f32⟩
  | _ => ⟨S1x1024, .i32⟩

abbrev hbmTy (i : Nat) : BufTy := match i / 128 with
  | 0 => hbmTy0_0 i
  | 1 => hbmTy0_1 i
  | _ => ⟨S1x1024, .i32⟩

abbrev bufTy : (tb : Table) → Fin (tcTables nBuf tb) → BufTy
  | .hbm, ⟨i, _⟩ => hbmTy i
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_c_8 : Ref sig .tc := ⟨.hbm, 71, rfl⟩
abbrev main_c_9 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_v42 : Ref sig .tc := ⟨.hbm, 78, rfl⟩
abbrev main_c_10 : Ref sig .tc := ⟨.hbm, 79, rfl⟩
abbrev main_call5_v0 : Ref sig .tc := ⟨.hbm, 80, rfl⟩
abbrev main_call5_v1 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call6_c : Ref sig .tc := ⟨.hbm, 88, rfl⟩
abbrev main_call6_v0 : Ref sig .tc := ⟨.hbm, 89, rfl⟩
abbrev main_call6_v1 : Ref sig .tc := ⟨.hbm, 90, rfl⟩
abbrev main_call6_c_0 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_c_1 : Ref sig .tc := ⟨.hbm, 96, rfl⟩
abbrev main_call6_c_2 : Ref sig .tc := ⟨.hbm, 97, rfl⟩
abbrev main_call6_v6 : Ref sig .tc := ⟨.hbm, 98, rfl⟩
abbrev main_call6_v7 : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_3 : Ref sig .tc := ⟨.hbm, 104, rfl⟩
abbrev main_call6_v12 : Ref sig .tc := ⟨.hbm, 105, rfl⟩
abbrev main_call6_v13 : Ref sig .tc := ⟨.hbm, 106, rfl⟩
abbrev main_call6_v14 : Ref sig .tc := ⟨.hbm, 107, rfl⟩
abbrev main_call6_cst : Ref sig .tc := ⟨.hbm, 108, rfl⟩
abbrev main_call6_v15 : Ref sig .tc := ⟨.hbm, 109, rfl⟩
abbrev main_v49 : Ref sig .tc := ⟨.hbm, 110, rfl⟩
abbrev main_call7_c : Ref sig .tc := ⟨.hbm, 111, rfl⟩
abbrev main_call7_v0 : Ref sig .tc := ⟨.hbm, 112, rfl⟩
abbrev main_call7_v1 : Ref sig .tc := ⟨.hbm, 113, rfl⟩
abbrev main_call7_c_0 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_c_1 : Ref sig .tc := ⟨.hbm, 119, rfl⟩
abbrev main_call7_c_2 : Ref sig .tc := ⟨.hbm, 120, rfl⟩
abbrev main_call7_v6 : Ref sig .tc := ⟨.hbm, 121, rfl⟩
abbrev main_call7_v7 : Ref sig .tc := ⟨.hbm, 122, rfl⟩
abbrev main_call7_v8 : Ref sig .tc := ⟨.hbm, 123, rfl⟩
abbrev main_call7_v9 : Ref sig .tc := ⟨.hbm, 124, rfl⟩
abbrev main_call7_v10 : Ref sig .tc := ⟨.hbm, 125, rfl⟩
abbrev main_call7_v11 : Ref sig .tc := ⟨.hbm, 126, rfl⟩
abbrev main_call7_c_3 : Ref sig .tc := ⟨.hbm, 127, rfl⟩
abbrev main_call7_v12 : Ref sig .tc := ⟨.hbm, 128, rfl⟩
abbrev main_call7_v13 : Ref sig .tc := ⟨.hbm, 129, rfl⟩
abbrev main_call7_v14 : Ref sig .tc := ⟨.hbm, 130, rfl⟩
abbrev main_call7_cst : Ref sig .tc := ⟨.hbm, 131, rfl⟩
abbrev main_call7_v15 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_call8_cst : Ref sig .tc := ⟨.hbm, 162, rfl⟩
abbrev main_call8_v15 : Ref sig .tc := ⟨.hbm, 163, rfl⟩
abbrev main_v59 : Ref sig .tc := ⟨.hbm, 164, rfl⟩
abbrev main_v60 : Ref sig .tc := ⟨.hbm, 165, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  slices_S139x128_S66x128_0_0 : S139x128.Slices ![0, 0] S66x128
  slices_S139x128_S66x128_66_0 : S139x128.Slices ![66, 0] S66x128
  slices_S139x128_S1x128_132_0 : S139x128.Slices ![132, 0] S1x128
  shapeCasts_S1x128_S128 : S1x128.ShapeCasts S128
  slices_S139x128_S6x128_133_0 : S139x128.Slices ![133, 0] S6x128
  bcast_S1x1024x1024_S1x1024x1024x1_0_1_2 : S1x1024x1024.BroadcastsInDim S1x1024x1024x1 (![0, 1, 2] : Fin 3 → Fin S1x1024x1024x1.rank)
  bcast_S_S1x1024x1024x1 : S_.BroadcastsInDim S1x1024x1024x1 (![] : Fin 0 → Fin S1x1024x1024x1.rank)
  bcast_S1_S1x1x1x1_3 : S1.BroadcastsInDim S1x1x1x1 (![3] : Fin 1 → Fin S1x1x1x1.rank)
  bcast_S1x1x1x1_S1x1024x1024x1_0_1_2_3 : S1x1x1x1.BroadcastsInDim S1x1024x1024x1 (![0, 1, 2, 3] : Fin 4 → Fin S1x1024x1024x1.rank)
  reducesTo_S1x1024x1024x1_S1x1024x1024_d3 : S1x1024x1024x1.ReducesTo [3] S1x1024x1024
  h_S_ : 0 < S_.numel
  bcast_S1x1024x1024_S1x1024x1024x128_0_1_2 : S1x1024x1024.BroadcastsInDim S1x1024x1024x128 (![0, 1, 2] : Fin 3 → Fin S1x1024x1024x128.rank)
  bcast_S_S1x1024x1024x128 : S_.BroadcastsInDim S1x1024x1024x128 (![] : Fin 0 → Fin S1x1024x1024x128.rank)
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.PairSpec.lean ====
/-
  The specification both programs meet, stated once and away from either program.

  For a pair of tokens (i, j) three small integers are formed from the five index arrays:
  a position bucket, a token bucket and a chain bucket.  Each is the signed offset a i - a j shifted by r and
  clipped to [0, 2r], or the extra value 2r + 1 when the pair fails its condition (same residue; same residue and
  same chain; different chain).  The result at (i, j, c) is the sum of three rows of the weight table chosen by the
  buckets (rows [0, 66), [66, 132) and [133, 139)) plus, when the two entity ids agree, row 132:
      W[p, c] + W[66 + t, c] + e * W[132, c] + W[133 + k, c].
  Sums of extended reals are commutative and associative and 0 * x = 0 for every x, so no finiteness is used.
-/
import Idealize.ShloMosaic.PureOps.Ideal
import Idealize.ShloMosaic.Lib.ValueIdx

noncomputable section

namespace Cert.PairBias

open Idealize.ShloMosaic Idealize.ShloMosaic.ValueIdx

/-! ## The integer side -/

/-- Whether two words are equal, as one bit. -/
def eqBit (a b : BitVec 32) : BitVec 1 := IntOp.cmpi .eq a b

/-- The bucket of the offset `a - b`: shifted by `r` and clipped into `[0, hi]` when the bit `c` is set, the
    extra value `sent` otherwise. -/
def bucket (r hi sent : BitVec 32) (c : BitVec 1) (a b : BitVec 32) : BitVec 32 :=
  Scalar.select c (IntOp.minsi hi (IntOp.maxsi 0#32 (IntOp.addi (IntOp.subi a b) r))) sent

/-- Position bucket: residues `ri`, `rj`. -/
def posB (ri rj : BitVec 32) : BitVec 32 := bucket 32#32 64#32 65#32 (eqBit ri rj) ri rj

/-- Token bucket: same residue and same chain. -/
def tokB (ri rj ai aj ti tj : BitVec 32) : BitVec 32 :=
  bucket 32#32 64#32 65#32 (IntOp.andi (eqBit ri rj) (eqBit ai aj)) ti tj

/-- Chain bucket: different chain. -/
def chainB (ai aj si sj : BitVec 32) : BitVec 32 := bucket 2#32 4#32 5#32 (~~~ (eqBit ai aj)) si sj

/-- A one-bit exclusive or with the set bit is the complement. -/
theorem xor_one_eq_not (x : BitVec 1) : IntOp.xori x 1#1 = ~~~ x := by
  revert x; decide

/-- A clipped bucket is a small natural number, whatever the offset: read signed it is its unsigned value, at
    most `n`. -/
theorem bucket_range (r hi sent : BitVec 32) (n : Nat) (hhi0 : 0 ≤ hi.toInt) (hhi : hi.toNat ≤ n) (hs0 : 0 ≤ sent.toInt)
    (hs : sent.toNat ≤ n) (c : BitVec 1) (a b : BitVec 32) :
    0 ≤ (bucket r hi sent c a b).toInt ∧ (bucket r hi sent c a b).toNat ≤ n := by
  unfold bucket Scalar.select
  split
  · generalize IntOp.addi (IntOp.subi a b) r = x
    have hM : 0 ≤ (IntOp.maxsi 0#32 x).toInt := by
      unfold IntOp.maxsi
      split
      · decide
      · rename_i h
        simp only [BitVec.slt, decide_eq_true_eq] at h
        have h0 : (0#32 : BitVec 32).toInt = 0 := by decide
        omega
    generalize IntOp.maxsi 0#32 x = y at hM
    unfold IntOp.minsi
    split
    · exact ⟨hhi0, hhi⟩
    · rename_i h
      simp only [BitVec.slt, decide_eq_true_eq] at h
      refine ⟨hM, ?_⟩
      have hy := y.isLt
      have hh := hi.isLt
      rw [BitVec.toInt_eq_toNat_cond] at h hM hhi0
      rw [BitVec.toInt_eq_toNat_cond] at h
      split at hM <;> split at hhi0 <;> simp only [*, if_true, if_false] at h <;> omega
  · exact ⟨hs0, hs⟩

theorem posB_range (ri rj : BitVec 32) : 0 ≤ (posB ri rj).toInt ∧ (posB ri rj).toNat ≤ 65 :=
  bucket_range _ _ _ 65 (by decide) (by decide) (by decide) (by decide) _ _ _

theorem tokB_range (ri rj ai aj ti tj : BitVec 32) : 0 ≤ (tokB ri rj ai aj ti tj).toInt ∧ (tokB ri rj ai aj ti tj).toNat ≤ 65 :=
  bucket_range _ _ _ 65 (by decide) (by decide) (by decide) (by decide) _ _ _

theorem chainB_range (ai aj si sj : BitVec 32) : 0 ≤ (chainB ai aj si sj).toInt ∧ (chainB ai aj si sj).toNat ≤ 5 :=
  bucket_range _ _ _ 5 (by decide) (by decide) (by decide) (by decide) _ _ _

/-- The row of the weight table a bucket selects inside a block of rows starting at `base` (the bucket is in range:
    the `min` only makes the bound evident). -/
def rowAt (base n : Nat) (h : base + n < 139) (b : BitVec 32) : Fin 139 := ⟨base + min b.toNat n, by omega⟩

/-! ## The value at one pair and one channel -/

/-- The result at a pair and a channel, from the ten index words of the pair and the channel's column of weights. -/
def cell (ri rj ti tj ai aj ei ej si sj : BitVec 32) (w : Fin 139 → EReal) : EReal :=
  ((w (rowAt 0 65 (by decide) (posB ri rj)) + w (rowAt 66 65 (by decide) (tokB ri rj ai aj ti tj)))
      + (((eqBit ei ej).toNat : ℝ) : EReal) * w ⟨132, by decide⟩)
    + w (rowAt 133 5 (by decide) (chainB ai aj si sj))

abbrev SIdx : Shape := ⟨2, ![1, 1024]⟩
abbrev SW : Shape := ⟨2, ![139, 128]⟩
abbrev SOut : Shape := ⟨4, ![1, 1024, 1024, 128]⟩

/-- THE RESULT ARRAY as one function of the six argument arrays. -/
def G (res tok asym ent sym : IVec SIdx 32) (W : FVec Ideal SW .f32) : FVec Ideal SOut .f32 := fun y =>
  cell (res (ix2 0 (y 1))) (res (ix2 0 (y 2))) (tok (ix2 0 (y 1))) (tok (ix2 0 (y 2)))
    (asym (ix2 0 (y 1))) (asym (ix2 0 (y 2))) (ent (ix2 0 (y 1))) (ent (ix2 0 (y 2)))
    (sym (ix2 0 (y 1))) (sym (ix2 0 (y 2))) (fun r => W (ix2 r (y 3)))

/-! ## One-hot sums -/

/-- A sum against a one-hot row picks one entry: no finiteness is needed, as `0 * x = 0` on the extended reals. -/
theorem sum_onehot {n : Nat} (r : Fin n) (w : Fin n → EReal) :
    (∑ k : Fin n, (if k = r then (1 : EReal) else 0) * w k) = w r := by
  rw [Finset.sum_eq_single r]
  · simp
  · intro k _ hk; simp [hk]
  · intro h; exact absurd (Finset.mem_univ r) h

end Cert.PairBias

end
-- ==== Proof.RefTerm.lean ====
/-
  The reference's result, as one term of its six argument arrays (at any float instance).

  For every pair (i, j): whether the chain ids, the residue indices and the entity ids agree (`sameOf`); the three
  buckets (`offsetIdx`: the offset a i - a j shifted and clipped, or the extra value where the pair's condition
  fails); three row look-ups in slices of the weight table (`takeRows`: jnp.take's index normalisation, its
  in-range mask and its fill value around one gather) and the entity term, a 0/1 factor times row 132; summed as
  ((pos + tok) + entity) + chain.
-/
import proofs.«408695_j88175678587717_3_alg».proof.Proof.Gen.ReferenceIdeal

noncomputable section

namespace Cert.ReferenceIdeal.Hand

open Cert.ReferenceIdeal Cert.ReferenceIdeal.Gen Idealize.ShloMosaic

variable {F : FTy → Type} [FloatOps F]

/-- `a i` at every pair `(i, j)`. -/
def rowOf (a : IVec S1x1024 32) : IVec S1x1024x1024 32 :=
  broadcastInDim S1x1024x1024 ![0, 1, 2] bcast_S1x1024x1_S1x1024x1024_0_1_2
    (broadcastInDim S1x1024x1 ![0, 1] bcast_S1x1024_S1x1024x1_0_1 a)

/-- `a j` at every pair `(i, j)`. -/
def colOf (a : IVec S1x1024 32) : IVec S1x1024x1024 32 :=
  broadcastInDim S1x1024x1024 ![0, 1, 2] bcast_S1x1x1024_S1x1024x1024_0_1_2
    (broadcastInDim S1x1x1024 ![0, 2] bcast_S1x1024_S1x1x1024_0_2 a)

/-- Whether `a i = a j`, pair by pair. -/
def sameOf (a : IVec S1x1024 32) : IVec S1x1024x1024 1 := cmpi .eq (rowOf a) (colOf a)

/-- One word at every pair. -/
def splat (b : BitVec 32) : IVec S1x1024x1024 32 :=
  broadcastInDim S1x1024x1024 ![] bcast_S_S1x1024x1024 (constantI S_ 32 b)

/-- The bucket of every pair: `a i - a j + r` clipped into `[0, hi]` where `same` holds, `sent` elsewhere. -/
def offsetIdx (same : IVec S1x1024x1024 1) (a : IVec S1x1024 32) (r hi sent : BitVec 32) : IVec S1x1024x1024 32 :=
  select same (minsi (splat hi) (maxsi (splat 0#32) (addi (subi (rowOf a) (colOf a)) (splat r)))) (splat sent)

/-- jnp.take's index normalisation: a negative index counts from the end. -/
def normIdx (n : BitVec 32) (idx : IVec S1x1024x1024 32) : IVec S1x1024x1024 32 :=
  select (cmpi .slt idx (splat 0#32)) (addi idx (splat n)) idx

/-- The normalised indices as the gather's start indices. -/
def startIdx (n : BitVec 32) (idx : IVec S1x1024x1024 32) : IVec S1x1024x1024x1 32 :=
  broadcastInDim S1x1024x1024x1 ![0, 1, 2] bcast_S1x1024x1024_S1x1024x1024x1_0_1_2 (normIdx n idx)

/-- jnp.take's mask: the normalised index lies in `[0, last]`. -/
def inRange (n last : BitVec 32) (idx : IVec S1x1024x1024 32) : IVec S1x1024x1024 1 :=
  Host.reduce IntOp.andi
    (andi (cmpi .sge (startIdx n idx) (broadcastInDim S1x1024x1024x1 ![] bcast_S_S1x1024x1024x1 (constantI S_ 32 0#32)))
      (cmpi .sle (startIdx n idx)
        (broadcastInDim S1x1024x1024x1 ![0, 1, 2, 3] bcast_S1x1x1x1_S1x1024x1024x1_0_1_2_3
          (broadcastInDim S1x1x1x1 ![3] bcast_S1_S1x1x1x1_3 (constantI S1 32 last)))))
    (constantI S_ 1 1#1) reducesTo_S1x1024x1024x1_S1x1024x1024_d3 h_S_

/-- jnp.take of rows: the gathered row where the index is in range, the fill value elsewhere. -/
def takeRows {S : Shape} (dims : GatherDims S S1x1024x1024x1 S1x1024x1024x128) (n last : BitVec 32)
    (tbl : FVec F S .f32) (idx : IVec S1x1024x1024 32) : FVec F S1x1024x1024x128 .f32 :=
  select (broadcastInDim S1x1024x1024x128 ![0, 1, 2] bcast_S1x1024x1024_S1x1024x1024x128_0_1_2 (inRange n last idx))
    (Host.gather dims tbl (startIdx n idx))
    (broadcastInDim S1x1024x1024x128 ![] bcast_S_S1x1024x1024x128 (constant S_ .f32 0x7FC00000#32))

/-- The entity term: 1 or 0 by pair, times row 132 of the weights by channel. -/
def entTerm (a3 : IVec S1x1024 32) (w : FVec F S139x128 .f32) : FVec F S1x1024x1024x128 .f32 :=
  mulf
    (broadcastInDim S1x1024x1024x128 ![0, 1, 2, 3] bcast_S1x1024x1024x1_S1x1024x1024x128_0_1_2_3
      (uitofp .f32 (broadcastInDim S1x1024x1024x1 ![0, 1, 2] bcast_S1x1024x1024_S1x1024x1024x1_0_1_2 (sameOf a3))))
    (broadcastInDim S1x1024x1024x128 ![0, 1, 2, 3] bcast_S1x1x1x128_S1x1024x1024x128_0_1_2_3
      (broadcastInDim S1x1x1x128 ![3] bcast_S128_S1x1x1x128_3
        (shapeCast S128 (extractStridedSlice S1x128 ![132, 0] w slices_S139x128_S1x128_132_0) shapeCasts_S1x128_S128)))

/-- THE REFERENCE'S RESULT of its argument arrays: residue index, token index, chain id, entity id, symmetry id
    and the weights. -/
def refOut (a0 a1 a2 a3 a4 : IVec S1x1024 32) (w : FVec F S139x128 .f32) : FVec F S1x1024x1024x128 .f32 :=
  addf
    (addf
      (addf
        (takeRows gather_S66x128_S1x1024x1024x1_S1x1024x1024x128_3_0_n_n_0_3_1128 66#32 65#32
          (extractStridedSlice S66x128 ![0, 0] w slices_S139x128_S66x128_0_0)
          (offsetIdx (sameOf a0) a0 32#32 64#32 65#32))
        (takeRows gather_S66x128_S1x1024x1024x1_S1x1024x1024x128_3_0_n_n_0_3_1128 66#32 65#32
          (extractStridedSlice S66x128 ![66, 0] w slices_S139x128_S66x128_66_0)
          (offsetIdx (andi (sameOf a0) (sameOf a2)) a1 32#32 64#32 65#32)))
      (entTerm a3 w))
    (takeRows gather_S6x128_S1x1024x1024x1_S1x1024x1024x128_3_0_n_n_0_3_1128 6#32 5#32
      (extractStridedSlice S6x128 ![133, 0] w slices_S139x128_S6x128_133_0)
      (offsetIdx (noti (sameOf a2)) a4 2#32 4#32 5#32))

end Cert.ReferenceIdeal.Hand

end
-- ==== Proof.RefRunOps.lean ====
/-
  The reference program's @main as lists of its host operations, in order, every call's operations listed
  at the call site over the call's buffer record: ops0 is the first window of the printed @main, ops1 the second;
  ops1a, ops1b, ... are ops1 again, in consecutive pieces.
-/
import proofs.«408695_j88175678587717_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 81 operations. -/
abbrev ops0 : List (HloOp τ sig (Elt F)) :=
  [ unary main_arg2 main_v0 (broadcastInDim S1x1024x1 ![0, 1] bcast_S1x1024_S1x1024x1_0_1 : (⟨S1x1024, .i32⟩ : BufTy).Contents (Elt F) → (⟨S1x1024x1, .i32⟩ : BufTy).Contents (Elt F)),
    unary main_arg2 main_v1 (broadcastInDim S1x1x1024 ![0, 2] bcast_S1x1024_S1x1x1024_0_2 : (⟨S1x1024, .i32⟩ : BufTy).Contents (Elt F) → (⟨S1x1x1024, .i32⟩ : BufTy).Contents (Elt F)),
    unary main_v0 main_v2 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v1 main_v3 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v2 main_v3 main_v4 (cmpi .eq : (⟨S1x1024x1024, .i32⟩ : BufTy).Contents (Elt F) → (⟨S1x1024x1024, .i32⟩ : BufTy).Contents (Elt F) → (⟨S1x1024x1024, .i1⟩ : BufTy).Contents (Elt F)),
    unary main_arg0 main_v5 (broadcastInDim S1x1024x1 ![0, 1] bcast_S1x1024_S1x1024x1_0_1 : (⟨S1x1024, .i32⟩ : BufTy).Contents (Elt F) → (⟨S1x1024x1, .i32⟩ : BufTy).Contents (Elt F)),
    unary main_arg0 main_v6 (broadcastInDim S1x1x1024 ![0, 2] bcast_S1x1024_S1x1x1024_0_2 : (⟨S1x1024, .i32⟩ : BufTy).Contents (Elt F) → (⟨S1x1x1024, .i32⟩ : BufTy).Contents (Elt F)),
    unary main_v5 main_v7 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v6 main_v8 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v7 main_v8 main_v9 (cmpi .eq : (⟨S1x1024x1024, .i32⟩ : BufTy).Contents (Elt F) → (⟨S1x1024x1024, .i32⟩ : BufTy).Contents (Elt F) → (⟨S1x1024x1024, .i1⟩ : BufTy).Contents (Elt F)),
    unary main_arg3 main_v10 (broadcastInDim S1x1024x1 ![0, 1] bcast_S1x1024_S1x1024x1_0_1 : (⟨S1x1024, .i32⟩ : BufTy).Contents (Elt F) → (⟨S1x1024x1, .i32⟩ : BufTy).Contents (Elt F)),
    unary main_arg3 main_v11 (broadcastInDim S1x1x1024 ![0, 2] bcast_S1x1024_S1x1x1024_0_2 : (⟨S1x1024, .i32⟩ : BufTy).Contents (Elt F) → (⟨S1x1x1024, .i32⟩ : BufTy).Contents (Elt F)),
    unary main_v10 main_v12 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v11 main_v13 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v12 main_v13 main_v14 (cmpi .eq : (⟨S1x1024x1024, .i32⟩ : BufTy).Contents (Elt F) → (⟨S1x1024x1024, .i32⟩ : BufTy).Contents (Elt F) → (⟨S1x1024x1024, .i1⟩ : BufTy).Contents (Elt F)),
    unary main_arg0 main_v15 (broadcastInDim S1x1024x1 ![0, 1] bcast_S1x1024_S1x1024x1_0_1 : (⟨S1x1024, .i32⟩ : BufTy).Contents (Elt F) → (⟨S1x1024x1, .i32⟩ : BufTy).Contents (Elt F)),
    unary main_arg0 main_v16 (broadcastInDim S1x1x1024 ![0, 2] bcast_S1x1024_S1x1x1024_0_2 : (⟨S1x1024, .i32⟩ : BufTy).Contents (Elt F) → (⟨S1x1x1024, .i32⟩ : BufTy).Contents (Elt F)),
    unary main_v15 main_v17 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v16 main_v18 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v17 main_v18 main_v19 (subi : (⟨S1x1024x1024, .i32⟩ : BufTy).Contents (Elt F) → (⟨S1x1024x1024, .i32⟩ : BufTy).Contents (Elt F) → (⟨S1x1024x1024, .i32⟩ : BufTy).Contents (Elt F)),
    nullary main_c (constantI S_ 32 32#32),
    unary main_c main_v20 (broadcastInDim S1x1024x1024 ![] bcast_S_S1x1024x1024 : (⟨S_, .i32⟩ : BufTy).Contents (Elt F) → (⟨S1x1024x1024, .i32⟩ : BufTy).Contents (Elt F)),
    binary main_v19 main_v20 main_v21 (addi : (⟨S1x1024x1024, .i32⟩ : BufTy).Contents (Elt F) → (⟨S1x1024x1024, .i32⟩ : BufTy).Contents (Elt F) → (⟨S1x1024x1024, .i32⟩ : BufTy).Contents (Elt F)),
    nullary main_c_0 (constantI S_ 32 0#32),
    nullary main_c_1 (constantI S_ 32 64#32),
    TRef.unary (.of main_c_0 : TRef sig ⟨S_, .i32⟩) main_call0.v0 id,
    TRef.unary main_call0.v0 main_call0.v1 (broadcastInDim S1x1024x1024 ![] bcast_S_S1x1024x1024),
    TRef.binary main_call0.v1 (.of main_v21 : TRef sig ⟨S1x1024x1024, .i32⟩) main_call0.v2 maxsi,
    TRef.unary (.of main_c_1 : TRef sig ⟨S_, .i32⟩) main_call0.v3 id,
    TRef.unary main_call0.v3 main_call0.v4 (broadcastInDim S1x1024x1024 ![] bcast_S_S1x1024x1024),
    TRef.binary main_call0.v4 main_call0.v2 main_call0.v5 minsi,
    nullary main_c_2 (constantI S_ 32 65#32),
    TRef.unary (.of main_c_2 : TRef sig ⟨S_, .i32⟩) main_call1.v0 id,
    TRef.unary main_call1.v0 main_call1.v1 (broadcastInDim S1x1024x1024 ![] bcast_S_S1x1024x1024),
    TRef.ternary (.of main_v9 : TRef sig ⟨S1x1024x1024, .i1⟩) (.of main_v22 : TRef sig ⟨S1x1024x1024, .i32⟩) main_call1.v1 main_call1.v2 select,
    binary main_v9 main_v4 main_v24 (andi : (⟨S1x1024x1024, .i1⟩ : BufTy).Contents (Elt F) → (⟨S1x1024x1024, .i1⟩ : BufTy).Contents (Elt F) → (⟨S1x1024x1024, .i1⟩ : BufTy).Contents (Elt F)),
    unary main_arg1 main_v25 (broadcastInDim S1x1024x1 ![0, 1] bcast_S1x1024_S1x1024x1_0_1 : (⟨S1x1024, .i32⟩ : BufTy).Contents (Elt F) → (⟨S1x1024x1, .i32⟩ : BufTy).Contents (Elt F)),
    unary main_arg1 main_v26 (broadcastInDim S1x1x1024 ![0, 2] bcast_S1x1024_S1x1x1024_0_2 : (⟨S1x1024, .i32⟩ : BufTy).Contents (Elt F) → (⟨S1x1x1024, .i32⟩ : BufTy).Contents (Elt F)),
    unary main_v25 main_v27 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v26 main_v28 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v27 main_v28 main_v29 (subi : (⟨S1x1024x1024, .i32⟩ : BufTy).Contents (Elt F) → (⟨S1x1024x1024, .i32⟩ : BufTy).Contents (Elt F) → (⟨S1x1024x1024, .i32⟩ : BufTy).Contents (Elt F)),
    nullary main_c_3 (constantI S_ 32 32#32),
    unary main_c_3 main_v30 (broadcastInDim S1x1024x1024 ![] bcast_S_S1x1024x1024 : (⟨S_, .i32⟩ : BufTy).Contents (Elt F) → (⟨S1x1024x1024, .i32⟩ : BufTy).Contents (Elt F)),
    binary main_v29 main_v30 main_v31 (addi : (⟨S1x1024x1024, .i32⟩ : BufTy).Contents (Elt F) → (⟨S1x1024x1024, .i32⟩ : BufTy).Contents (Elt F) → (⟨S1x1024x1024, .i32⟩ : BufTy).Contents (Elt F)),
    nullary main_c_4 (constantI S_ 32 0#32),
    nullary main_c_5 (constantI S_ 32 64#32),
    TRef.unary (.of main_c_4 : TRef sig ⟨S_, .i32⟩) main_call2.v0 id,
    TRef.unary main_call2.v0 main_call2.v1 (broadcastInDim S1x1024x1024 ![] bcast_S_S1x1024x1024),
    TRef.binary main_call2.v1 (.of main_v31 : TRef sig ⟨S1x1024x1024, .i32⟩) main_call2.v2 maxsi,
    TRef.unary (.of main_c_5 : TRef sig ⟨S_, .i32⟩) main_call2.v3 id,
    TRef.unary main_call2.v3 main_call2.v4 (broadcastInDim S1x1024x1024 ![] bcast_S_S1x1024x1024),
    TRef.binary main_call2.v4 main_call2.v2 main_call2.v5 minsi,
    nullary main_c_6 (constantI S_ 32 65#32),
    TRef.unary (.of main_c_6 : TRef sig ⟨S_, .i32⟩) main_call3.v0 id,
    TRef.unary main_call3.v0 main_call3.v1 (broadcastInDim S1x1024x1024 ![] bcast_S_S1x1024x1024),
    TRef.ternary (.of main_v24 : TRef sig ⟨S1x1024x1024, .i1⟩) (.of main_v32 : TRef sig ⟨S1x1024x1024, .i32⟩) main_call3.v1 main_call3.v2 select,
    unary main_v4 main_v34 (noti : (⟨S1x1024x1024, .i1⟩ : BufTy).Contents (Elt F) → (⟨S1x1024x1024, .i1⟩ : BufTy).Contents (Elt F)),
    unary main_arg4 main_v35 (broadcastInDim S1x1024x1 ![0, 1] bcast_S1x1024_S1x1024x1_0_1 : (⟨S1x1024, .i32⟩ : BufTy).Contents (Elt F) → (⟨S1x1024x1, .i32⟩ : BufTy).Contents (Elt F)),
    unary main_arg4 main_v36 (broadcastInDim S1x1x1024 ![0, 2] bcast_S1x1024_S1x1x1024_0_2 : (⟨S1x1024, .i32⟩ : BufTy).Contents (Elt F) → (⟨S1x1x1024, .i32⟩ : BufTy).Contents (Elt F)),
    unary main_v35 main_v37 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    unary main_v36 main_v38 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    binary main_v37 main_v38 main_v39 (subi : (⟨S1x1024x1024, .i32⟩ : BufTy).Contents (Elt F) → (⟨S1x1024x1024, .i32⟩ : BufTy).Contents (Elt F) → (⟨S1x1024x1024, .i32⟩ : BufTy).Contents (Elt F)),
    nullary main_c_7 (constantI S_ 32 2#32),
    unary main_c_7 main_v40 (broadcastInDim S1x1024x1024 ![] bcast_S_S1x1024x1024 : (⟨S_, .i32⟩ : BufTy).Contents (Elt F) → (⟨S1x1024x1024, .i32⟩ : BufTy).Contents (Elt F)),
    binary main_v39 main_v40 main_v41 (addi : (⟨S1x1024x1024, .i32⟩ : BufTy).Contents (Elt F) → (⟨S1x1024x1024, .i32⟩ : BufTy).Contents (Elt F) → (⟨S1x1024x1024, .i32⟩ : BufTy).Contents (Elt F)),
    nullary main_c_8 (constantI S_ 32 0#32),
    nullary main_c_9 (constantI S_ 32 4#32),
    TRef.unary (.of main_c_8 : TRef sig ⟨S_, .i32⟩) main_call4.v0 id,
    TRef.unary main_call4.v0 main_call4.v1 (broadcastInDim S1x1024x1024 ![] bcast_S_S1x1024x1024),
    TRef.binary main_call4.v1 (.of main_v41 : TRef sig ⟨S1x1024x1024, .i32⟩) main_call4.v2 maxsi,
    TRef.unary (.of main_c_9 : TRef sig ⟨S_, .i32⟩) main_call4.v3 id,
    TRef.unary main_call4.v3 main_call4.v4 (broadcastInDim S1x1024x1024 ![] bcast_S_S1x1024x1024),
    TRef.binary main_call4.v4 main_call4.v2 main_call4.v5 minsi,
    nullary main_c_10 (constantI S_ 32 5#32),
    TRef.unary (.of main_c_10 : TRef sig ⟨S_, .i32⟩) main_call5.v0 id,
    TRef.unary main_call5.v0 main_call5.v1 (broadcastInDim S1x1024x1024 ![] bcast_S_S1x1024x1024),
    TRef.ternary (.of main_v34 : TRef sig ⟨S1x1024x1024, .i1⟩) (.of main_v42 : TRef sig ⟨S1x1024x1024, .i32⟩) main_call5.v1 main_call5.v2 select,
    unary main_arg5 main_v44 ((extractStridedSlice S66x128 ![0, 0] · slices_S139x128_S66x128_0_0) : (⟨S139x128, .f32⟩ : BufTy).Contents (Elt F) → (⟨S66x128, .f32⟩ : BufTy).Contents (Elt F)),
    unary main_arg5 main_v45 ((extractStridedSlice S66x128 ![66, 0] · slices_S139x128_S66x128_66_0) : (⟨S139x128, .f32⟩ : BufTy).Contents (Elt F) → (⟨S66x128, .f32⟩ : BufTy).Contents (Elt F)),
    unary main_arg5 main_v46 ((extractStridedSlice S1x128 ![132, 0] · slices_S139x128_S1x128_132_0) : (⟨S139x128, .f32⟩ : BufTy).Contents (Elt F) → (⟨S1x128, .f32⟩ : BufTy).Contents (Elt F)),
    reshape main_v46 main_v47 rfl shapeCasts_S1x128_S128 ]

/-- 79 operations. -/
abbrev ops1 : List (HloOp τ sig (Elt F)) :=
  [ unary main_arg5 main_v48 ((extractStridedSlice S6x128 ![133, 0] · slices_S139x128_S6x128_133_0) : (⟨S139x128, .f32⟩ : BufTy).Contents (Elt F) → (⟨S6x128, .f32⟩ : BufTy).Contents (Elt F)),
    TRef.nullary main_call6.c (constantI S_ 32 0#32),
    TRef.unary main_call6.c main_call6.v0 (broadcastInDim S1x1024x1024 ![] bcast_S_S1x1024x1024),
    TRef.binary (.of main_v23 : TRef sig ⟨S1x1024x1024, .i32⟩) main_call6.v0 main_call6.v1 (cmpi .slt),
    TRef.nullary main_call6.c_0 (constantI S_ 32 66#32),
    TRef.unary main_call6.c_0 main_call6.v2 (broadcastInDim S1x1024x1024 ![] bcast_S_S1x1024x1024),
    TRef.binary (.of main_v23 : TRef sig ⟨S1x1024x1024, .i32⟩) main_call6.v2 main_call6.v3 addi,
    TRef.ternary main_call6.v1 main_call6.v3 (.of main_v23 : TRef sig ⟨S1x1024x1024, .i32⟩) main_call6.call0.v0 select,
    TRef.unary main_call6.call0.v0 main_call6.v5 (broadcastInDim S1x1024x1024x1 ![0, 1, 2] bcast_S1x1024x1024_S1x1024x1024x1_0_1_2),
    TRef.nullary main_call6.c_1 (constantI S1 32 65#32),
    TRef.nullary main_call6.c_2 (constantI S_ 32 0#32),
    TRef.unary main_call6.c_2 main_call6.v6 (broadcastInDim S1x1024x1024x1 ![] bcast_S_S1x1024x1024x1),
    TRef.binary main_call6.v5 main_call6.v6 main_call6.v7 (cmpi .sge),
    TRef.unary main_call6.c_1 main_call6.v8 (broadcastInDim S1x1x1x1 ![3] bcast_S1_S1x1x1x1_3),
    TRef.unary main_call6.v8 main_call6.v9 (broadcastInDim S1x1024x1024x1 ![0, 1, 2, 3] bcast_S1x1x1x1_S1x1024x1024x1_0_1_2_3),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1x1024x1024x1_S1x1024x1024_d3 h_S_),
    TRef.binary (.of main_v44 : TRef sig ⟨S66x128, .f32⟩) main_call6.v5 main_call6.v13 (fun x i => Host.gather gather_S66x128_S1x1024x1024x1_S1x1024x1024x128_3_0_n_n_0_3_1128 x i),
    TRef.unary main_call6.v12 main_call6.v14 (broadcastInDim S1x1024x1024x128 ![0, 1, 2] bcast_S1x1024x1024_S1x1024x1024x128_0_1_2),
    TRef.nullary main_call6.cst (constant S_ .f32 0x7FC00000#32),
    TRef.unary main_call6.cst main_call6.v15 (broadcastInDim S1x1024x1024x128 ![] bcast_S_S1x1024x1024x128),
    TRef.ternary main_call6.v14 main_call6.v13 main_call6.v15 main_call6.v16 select,
    TRef.nullary main_call7.c (constantI S_ 32 0#32),
    TRef.unary main_call7.c main_call7.v0 (broadcastInDim S1x1024x1024 ![] bcast_S_S1x1024x1024),
    TRef.binary (.of main_v33 : TRef sig ⟨S1x1024x1024, .i32⟩) main_call7.v0 main_call7.v1 (cmpi .slt),
    TRef.nullary main_call7.c_0 (constantI S_ 32 66#32),
    TRef.unary main_call7.c_0 main_call7.v2 (broadcastInDim S1x1024x1024 ![] bcast_S_S1x1024x1024),
    TRef.binary (.of main_v33 : TRef sig ⟨S1x1024x1024, .i32⟩) main_call7.v2 main_call7.v3 addi,
    TRef.ternary main_call7.v1 main_call7.v3 (.of main_v33 : TRef sig ⟨S1x1024x1024, .i32⟩) main_call7.call0.v0 select,
    TRef.unary main_call7.call0.v0 main_call7.v5 (broadcastInDim S1x1024x1024x1 ![0, 1, 2] bcast_S1x1024x1024_S1x1024x1024x1_0_1_2),
    TRef.nullary main_call7.c_1 (constantI S1 32 65#32),
    TRef.nullary main_call7.c_2 (constantI S_ 32 0#32),
    TRef.unary main_call7.c_2 main_call7.v6 (broadcastInDim S1x1024x1024x1 ![] bcast_S_S1x1024x1024x1),
    TRef.binary main_call7.v5 main_call7.v6 main_call7.v7 (cmpi .sge),
    TRef.unary main_call7.c_1 main_call7.v8 (broadcastInDim S1x1x1x1 ![3] bcast_S1_S1x1x1x1_3),
    TRef.unary main_call7.v8 main_call7.v9 (broadcastInDim S1x1024x1024x1 ![0, 1, 2, 3] bcast_S1x1x1x1_S1x1024x1024x1_0_1_2_3),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S1x1024x1024x1_S1x1024x1024_d3 h_S_),
    TRef.binary (.of main_v45 : TRef sig ⟨S66x128, .f32⟩) main_call7.v5 main_call7.v13 (fun x i => Host.gather gather_S66x128_S1x1024x1024x1_S1x1024x1024x128_3_0_n_n_0_3_1128 x i),
    TRef.unary main_call7.v12 main_call7.v14 (broadcastInDim S1x1024x1024x128 ![0, 1, 2] bcast_S1x1024x1024_S1x1024x1024x128_0_1_2),
    TRef.nullary main_call7.cst (constant S_ .f32 0x7FC00000#32),
    TRef.unary main_call7.cst main_call7.v15 (broadcastInDim S1x1024x1024x128 ![] bcast_S_S1x1024x1024x128),
    TRef.ternary main_call7.v14 main_call7.v13 main_call7.v15 main_call7.v16 select,
    binary main_v49 main_v50 main_v51 (addf : (⟨S1x1024x1024x128, .f32⟩ : BufTy).Contents (Elt F) → (⟨S1x1024x1024x128, .f32⟩ : BufTy).Contents (Elt F) → (⟨S1x1024x1024x128, .f32⟩ : BufTy).Contents (Elt F)),
    unary main_v14 main_v52 (broadcastInDim S1x1024x1024x1 ![0, 1, 2] bcast_S1x1024x1024_S1x1024x1024x1_0_1_2 : (⟨S1x1024x1024, .i1⟩ : BufTy).Contents (Elt F) → (⟨S1x1024x1024x1, .i1⟩ : BufTy).Contents (Elt F)),
    unary main_v52 main_v53 (uitofp .f32 : (⟨S1x1024x1024x1, .i1⟩ : BufTy).Contents (Elt F) → (⟨S1x1024x1024x1, .f32⟩ : BufTy).Contents (Elt F)),
    unary main_v47 main_v54 (broadcastInDim S1x1x1x128 ![3] bcast_S128_S1x1x1x128_3 : (⟨S128, .f32⟩ : BufTy).Contents (Elt F) → (⟨S1x1x1x128, .f32⟩ : BufTy).Contents (Elt F)),
    unary main_v53 main_v55 (broadcastInDim S1x1024x1024x128 ![0, 1, 2, 3] bcast_S1x1024x1024x1_S1x1024x1024x128_0_1_2_3 : (⟨S1x1024x1024x1, .f32⟩ : BufTy).Contents (Elt F) → (⟨S1x1024x1024x128, .f32⟩ : BufTy).Contents (Elt F)),
    unary main_v54 main_v56 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    binary main_v55 main_v56 main_v57 (mulf : (⟨S1x1024x1024x128, .f32⟩ : BufTy).Contents (Elt F) → (⟨S1x1024x1024x128, .f32⟩ : BufTy).Contents (Elt F) → (⟨S1x1024x1024x128, .f32⟩ : BufTy).Contents (Elt F)),
    binary main_v51 main_v57 main_v58 (addf : (⟨S1x1024x1024x128, .f32⟩ : BufTy).Contents (Elt F) → (⟨S1x1024x1024x128, .f32⟩ : BufTy).Contents (Elt F) → (⟨S1x1024x1024x128, .f32⟩ : BufTy).Contents (Elt F)),
    TRef.nullary main_call8.c (constantI S_ 32 0#32),
    TRef.unary main_call8.c main_call8.v0 (broadcastInDim S1x1024x1024 ![] bcast_S_S1x1024x1024),
    TRef.binary (.of main_v43 : TRef sig ⟨S1x1024x1024, .i32⟩) main_call8.v0 main_call8.v1 (cmpi .slt),
    TRef.nullary main_call8.c_0 (constantI S_ 32 6#32),
    TRef.unary main_call8.c_0 main_call8.v2 (broadcastInDim S1x1024x1024 ![] bcast_S_S1x1024x1024),
    TRef.binary (.of main_v43 : TRef sig ⟨S1x1024x1024, .i32⟩) main_call8.v2 main_call8.v3 addi,
    TRef.ternary main_call8.v1 main_call8.v3 (.of main_v43 : TRef sig ⟨S1x1024x1024, .i32⟩) main_call8.call0.v0 select,
    TRef.unary main_call8.call0.v0 main_call8.v5 (broadcastInDim S1x1024x1024x1 ![0, 1, 2] bcast_S1x1024x1024_S1x1024x1024x1_0_1_2),
    TRef.nullary main_call8.c_1 (constantI S1 32 5#32),
    TRef.nullary main_call8.c_2 (constantI S_ 32 0#32),
    TRef.unary main_call8.c_2 main_call8.v6 (broadcastInDim S1x1024x1024x1 ![] bcast_S_S1x1024x1024x1),
    TRef.binary main_call8.v5 main_call8.v6 main_call8.v7 (cmpi .sge),
    TRef.unary main_call8.c_1 main_call8.v8 (broadcastInDim S1x1x1x1 ![3] bcast_S1_S1x1x1x1_3),
    TRef.unary main_call8.v8 main_call8.v9 (broadcastInDim S1x1024x1024x1 ![0, 1, 2, 3] bcast_S1x1x1x1_S1x1024x1024x1_0_1_2_3),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S1x1024x1024x1_S1x1024x1024_d3 h_S_),
    TRef.binary (.of main_v48 : TRef sig ⟨S6x128, .f32⟩) main_call8.v5 main_call8.v13 (fun x i => Host.gather gather_S6x128_S1x1024x1024x1_S1x1024x1024x128_3_0_n_n_0_3_1128 x i),
    TRef.unary main_call8.v12 main_call8.v14 (broadcastInDim S1x1024x1024x128 ![0, 1, 2] bcast_S1x1024x1024_S1x1024x1024x128_0_1_2),
    TRef.nullary main_call8.cst (constant S_ .f32 0x7FC00000#32),
    TRef.unary main_call8.cst main_call8.v15 (broadcastInDim S1x1024x1024x128 ![] bcast_S_S1x1024x1024x128),
    TRef.ternary main_call8.v14 main_call8.v13 main_call8.v15 main_call8.v16 select,
    binary main_v58 main_v59 main_v60 (addf : (⟨S1x1024x1024x128, .f32⟩ : BufTy).Contents (Elt F) → (⟨S1x1024x1024x128, .f32⟩ : BufTy).Contents (Elt F) → (⟨S1x1024x1024x128, .f32⟩ : BufTy).Contents (Elt F)) ]

/-- 24 operations. -/
abbrev ops1a : List (HloOp τ sig (Elt F)) :=
  [ unary main_arg5 main_v48 ((extractStridedSlice S6x128 ![133, 0] · slices_S139x128_S6x128_133_0) : (⟨S139x128, .f32⟩ : BufTy).Contents (Elt F) → (⟨S6x128, .f32⟩ : BufTy).Contents (Elt F)),
    TRef.nullary main_call6.c (constantI S_ 32 0#32),
    TRef.unary main_call6.c main_call6.v0 (broadcastInDim S1x1024x1024 ![] bcast_S_S1x1024x1024),
    TRef.binary (.of main_v23 : TRef sig ⟨S1x1024x1024, .i32⟩) main_call6.v0 main_call6.v1 (cmpi .slt),
    TRef.nullary main_call6.c_0 (constantI S_ 32 66#32),
    TRef.unary main_call6.c_0 main_call6.v2 (broadcastInDim S1x1024x1024 ![] bcast_S_S1x1024x1024),
    TRef.binary (.of main_v23 : TRef sig ⟨S1x1024x1024, .i32⟩) main_call6.v2 main_call6.v3 addi,
    TRef.ternary main_call6.v1 main_call6.v3 (.of main_v23 : TRef sig ⟨S1x1024x1024, .i32⟩) main_call6.call0.v0 select,
    TRef.unary main_call6.call0.v0 main_call6.v5 (broadcastInDim S1x1024x1024x1 ![0, 1, 2] bcast_S1x1024x1024_S1x1024x1024x1_0_1_2),
    TRef.nullary main_call6.c_1 (constantI S1 32 65#32),
    TRef.nullary main_call6.c_2 (constantI S_ 32 0#32),
    TRef.unary main_call6.c_2 main_call6.v6 (broadcastInDim S1x1024x1024x1 ![] bcast_S_S1x1024x1024x1),
    TRef.binary main_call6.v5 main_call6.v6 main_call6.v7 (cmpi .sge),
    TRef.unary main_call6.c_1 main_call6.v8 (broadcastInDim S1x1x1x1 ![3] bcast_S1_S1x1x1x1_3),
    TRef.unary main_call6.v8 main_call6.v9 (broadcastInDim S1x1024x1024x1 ![0, 1, 2, 3] bcast_S1x1x1x1_S1x1024x1024x1_0_1_2_3),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1x1024x1024x1_S1x1024x1024_d3 h_S_),
    TRef.binary (.of main_v44 : TRef sig ⟨S66x128, .f32⟩) main_call6.v5 main_call6.v13 (fun x i => Host.gather gather_S66x128_S1x1024x1024x1_S1x1024x1024x128_3_0_n_n_0_3_1128 x i),
    TRef.unary main_call6.v12 main_call6.v14 (broadcastInDim S1x1024x1024x128 ![0, 1, 2] bcast_S1x1024x1024_S1x1024x1024x128_0_1_2),
    TRef.nullary main_call6.cst (constant S_ .f32 0x7FC00000#32),
    TRef.unary main_call6.cst main_call6.v15 (broadcastInDim S1x1024x1024x128 ![] bcast_S_S1x1024x1024x128),
    TRef.ternary main_call6.v14 main_call6.v13 main_call6.v15 main_call6.v16 select ]

/-- 23 operations. -/
abbrev ops1b : List (HloOp τ sig (Elt F)) :=
  [ TRef.nullary main_call7.c (constantI S_ 32 0#32),
    TRef.unary main_call7.c main_call7.v0 (broadcastInDim S1x1024x1024 ![] bcast_S_S1x1024x1024),
    TRef.binary (.of main_v33 : TRef sig ⟨S1x1024x1024, .i32⟩) main_call7.v0 main_call7.v1 (cmpi .slt),
    TRef.nullary main_call7.c_0 (constantI S_ 32 66#32),
    TRef.unary main_call7.c_0 main_call7.v2 (broadcastInDim S1x1024x1024 ![] bcast_S_S1x1024x1024),
    TRef.binary (.of main_v33 : TRef sig ⟨S1x1024x1024, .i32⟩) main_call7.v2 main_call7.v3 addi,
    TRef.ternary main_call7.v1 main_call7.v3 (.of main_v33 : TRef sig ⟨S1x1024x1024, .i32⟩) main_call7.call0.v0 select,
    TRef.unary main_call7.call0.v0 main_call7.v5 (broadcastInDim S1x1024x1024x1 ![0, 1, 2] bcast_S1x1024x1024_S1x1024x1024x1_0_1_2),
    TRef.nullary main_call7.c_1 (constantI S1 32 65#32),
    TRef.nullary main_call7.c_2 (constantI S_ 32 0#32),
    TRef.unary main_call7.c_2 main_call7.v6 (broadcastInDim S1x1024x1024x1 ![] bcast_S_S1x1024x1024x1),
    TRef.binary main_call7.v5 main_call7.v6 main_call7.v7 (cmpi .sge),
    TRef.unary main_call7.c_1 main_call7.v8 (broadcastInDim S1x1x1x1 ![3] bcast_S1_S1x1x1x1_3),
    TRef.unary main_call7.v8 main_call7.v9 (broadcastInDim S1x1024x1024x1 ![0, 1, 2, 3] bcast_S1x1x1x1_S1x1024x1024x1_0_1_2_3),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S1x1024x1024x1_S1x1024x1024_d3 h_S_),
    TRef.binary (.of main_v45 : TRef sig ⟨S66x128, .f32⟩) main_call7.v5 main_call7.v13 (fun x i => Host.gather gather_S66x128_S1x1024x1024x1_S1x1024x1024x128_3_0_n_n_0_3_1128 x i),
    TRef.unary main_call7.v12 main_call7.v14 (broadcastInDim S1x1024x1024x128 ![0, 1, 2] bcast_S1x1024x1024_S1x1024x1024x128_0_1_2),
    TRef.nullary main_call7.cst (constant S_ .f32 0x7FC00000#32),
    TRef.unary main_call7.cst main_call7.v15 (broadcastInDim S1x1024x1024x128 ![] bcast_S_S1x1024x1024x128),
    TRef.ternary main_call7.v14 main_call7.v13 main_call7.v15 main_call7.v16 select ]

/-- 8 operations. -/
abbrev ops1c : List (HloOp τ sig (Elt F)) :=
  [ binary main_v49 main_v50 main_v51 (addf : (⟨S1x1024x1024x128, .f32⟩ : BufTy).Contents (Elt F) → (⟨S1x1024x1024x128, .f32⟩ : BufTy).Contents (Elt F) → (⟨S1x1024x1024x128, .f32⟩ : BufTy).Contents (Elt F)),
    unary main_v14 main_v52 (broadcastInDim S1x1024x1024x1 ![0, 1, 2] bcast_S1x1024x1024_S1x1024x1024x1_0_1_2 : (⟨S1x1024x1024, .i1⟩ : BufTy).Contents (Elt F) → (⟨S1x1024x1024x1, .i1⟩ : BufTy).Contents (Elt F)),
    unary main_v52 main_v53 (uitofp .f32 : (⟨S1x1024x1024x1, .i1⟩ : BufTy).Contents (Elt F) → (⟨S1x1024x1024x1, .f32⟩ : BufTy).Contents (Elt F)),
    unary main_v47 main_v54 (broadcastInDim S1x1x1x128 ![3] bcast_S128_S1x1x1x128_3 : (⟨S128, .f32⟩ : BufTy).Contents (Elt F) → (⟨S1x1x1x128, .f32⟩ : BufTy).Contents (Elt F)),
    unary main_v53 main_v55 (broadcastInDim S1x1024x1024x128 ![0, 1, 2, 3] bcast_S1x1024x1024x1_S1x1024x1024x128_0_1_2_3 : (⟨S1x1024x1024x1, .f32⟩ : BufTy).Contents (Elt F) → (⟨S1x1024x1024x128, .f32⟩ : BufTy).Contents (Elt F)),
    unary main_v54 main_v56 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    binary main_v55 main_v56 main_v57 (mulf : (⟨S1x1024x1024x128, .f32⟩ : BufTy).Contents (Elt F) → (⟨S1x1024x1024x128, .f32⟩ : BufTy).Contents (Elt F) → (⟨S1x1024x1024x128, .f32⟩ : BufTy).Contents (Elt F)),
    binary main_v51 main_v57 main_v58 (addf : (⟨S1x1024x1024x128, .f32⟩ : BufTy).Contents (Elt F) → (⟨S1x1024x1024x128, .f32⟩ : BufTy).Contents (Elt F) → (⟨S1x1024x1024x128, .f32⟩ : BufTy).Contents (Elt F)) ]

/-- 24 operations. -/
abbrev ops1d : List (HloOp τ sig (Elt F)) :=
  [ TRef.nullary main_call8.c (constantI S_ 32 0#32),
    TRef.unary main_call8.c main_call8.v0 (broadcastInDim S1x1024x1024 ![] bcast_S_S1x1024x1024),
    TRef.binary (.of main_v43 : TRef sig ⟨S1x1024x1024, .i32⟩) main_call8.v0 main_call8.v1 (cmpi .slt),
    TRef.nullary main_call8.c_0 (constantI S_ 32 6#32),
    TRef.unary main_call8.c_0 main_call8.v2 (broadcastInDim S1x1024x1024 ![] bcast_S_S1x1024x1024),
    TRef.binary (.of main_v43 : TRef sig ⟨S1x1024x1024, .i32⟩) main_call8.v2 main_call8.v3 addi,
    TRef.ternary main_call8.v1 main_call8.v3 (.of main_v43 : TRef sig ⟨S1x1024x1024, .i32⟩) main_call8.call0.v0 select,
    TRef.unary main_call8.call0.v0 main_call8.v5 (broadcastInDim S1x1024x1024x1 ![0, 1, 2] bcast_S1x1024x1024_S1x1024x1024x1_0_1_2),
    TRef.nullary main_call8.c_1 (constantI S1 32 5#32),
    TRef.nullary main_call8.c_2 (constantI S_ 32 0#32),
    TRef.unary main_call8.c_2 main_call8.v6 (broadcastInDim S1x1024x1024x1 ![] bcast_S_S1x1024x1024x1),
    TRef.binary main_call8.v5 main_call8.v6 main_call8.v7 (cmpi .sge),
    TRef.unary main_call8.c_1 main_call8.v8 (broadcastInDim S1x1x1x1 ![3] bcast_S1_S1x1x1x1_3),
    TRef.unary main_call8.v8 main_call8.v9 (broadcastInDim S1x1024x1024x1 ![0, 1, 2, 3] bcast_S1x1x1x1_S1x1024x1024x1_0_1_2_3),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S1x1024x1024x1_S1x1024x1024_d3 h_S_),
    TRef.binary (.of main_v48 : TRef sig ⟨S6x128, .f32⟩) main_call8.v5 main_call8.v13 (fun x i => Host.gather gather_S6x128_S1x1024x1024x1_S1x1024x1024x128_3_0_n_n_0_3_1128 x i),
    TRef.unary main_call8.v12 main_call8.v14 (broadcastInDim S1x1024x1024x128 ![0, 1, 2] bcast_S1x1024x1024_S1x1024x1024x128_0_1_2),
    TRef.nullary main_call8.cst (constant S_ .f32 0x7FC00000#32),
    TRef.unary main_call8.cst main_call8.v15 (broadcastInDim S1x1024x1024x128 ![] bcast_S_S1x1024x1024x128),
    TRef.ternary main_call8.v14 main_call8.v13 main_call8.v15 main_call8.v16 select,
    binary main_v58 main_v59 main_v60 (addf : (⟨S1x1024x1024x128, .f32⟩ : BufTy).Contents (Elt F) → (⟨S1x1024x1024x128, .f32⟩ : BufTy).Contents (Elt F) → (⟨S1x1024x1024x128, .f32⟩ : BufTy).Contents (Elt F)) ]

end Cert.ReferenceIdeal.Hand

end
-- ==== Proof.RefRun.lean ====
/-
  The reference program's run: every execution of its @main ends with the result buffer at `refOut` of the
  argument arrays and the arguments unchanged.

  @main is a straight line of 160 host operations (`ops0` then `ops1`, every call's operations at its call site).
  What a buffer holds at the end is the fold of the operations' results over the launch contents. The fold is read in
  two stretches. After the first stretch (from any contents) the three bucket arrays are `offsetIdx` of the argument
  arrays, the entity bits `sameOf` of the entity ids, and the two 66-row slices and row 132 are cut out of the weights.
  The second stretch is read in four pieces (from any contents each): a look-up is `takeRows` of its table and its
  bucket array, the partial sum adds the entity term, and the last piece adds the third look-up. Composed, the sum is
  `refOut`.
-/
import proofs.«408695_j88175678587717_3_alg».proof.Proof.RefTerm
import proofs.«408695_j88175678587717_3_alg».proof.Proof.RefRunOps
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

-- eighty-one binds re-associated: the rewrite under the chain recurses once per statement
set_option maxRecDepth 4096 in
/-- The first window of @main is its operations in order: the callees' bodies unfolded at their calls, both sides are
    one chain of steps once sequencing is re-associated. -/
theorem main_part0_eq (c : Dev nD) : main_part0 (F := F) c = seq ops0 := by
  simp only [main_part0, fn_clip.body, fn_where.body, seq, bind_assoc, pure_bind]
  rfl

set_option maxRecDepth 4096 in
/-- The second window likewise (a look-up's body calls the select's body in turn). -/
theorem main_part1_eq (c : Dev nD) : main_part1 (F := F) c = seq ops1 := by
  simp only [main_part1, fn_take.body, fn_take_1.body, fn_where_0.body, seq, bind_assoc, pure_bind]

/-- @main's 160 operations, in order. -/
abbrev ops : List (HloOp τ sig (Elt F)) := ops0 ++ ops1

/-- @main runs its two windows in order, and two lines run in order are their concatenation. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]

set_option maxRecDepth 8192 in
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]

/-- Every operation touches TensorCore references only. -/
theorem ops_sub : (ops : List (HloOp τ sig (Elt F))).Forall fun op => op.bufs ⊆ tcRefs τ sig :=
  List.forall_append.mpr ⟨ops0_sub, ops1_sub⟩

/-- The fold over a concatenation is the fold over the second line from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The second window is its four pieces in order: the first look-up (after the last slice), the second look-up,
    the partial sum with the entity term, the third look-up and the last sum. -/
theorem ops1_cut : (ops1 : List (HloOp τ sig (Elt F))) = ops1a ++ (ops1b ++ (ops1c ++ ops1d)) := rfl

/-! ## The first stretch: buckets, entity bits, slices -/

section First

variable (V : Valuation τ sig (Elt F))

set_option maxRecDepth 8192 in
set_option maxHeartbeats 4000000 in
/-- The residue-index buckets. -/
theorem first_v23 : after ops0 V (main_v23 : DevRef τ sig)
    = offsetIdx (sameOf (V (main_arg0 : DevRef τ sig))) (V (main_arg0 : DevRef τ sig)) 32#32 64#32 65#32 := by
  after_results_simp <;> rfl

set_option maxRecDepth 8192 in
set_option maxHeartbeats 4000000 in
/-- The token-index buckets, where residue index and chain id both agree. -/
theorem first_v33 : after ops0 V (main_v33 : DevRef τ sig)
    = offsetIdx (andi (sameOf (V (main_arg0 : DevRef τ sig))) (sameOf (V (main_arg2 : DevRef τ sig))))
        (V (main_arg1 : DevRef τ sig)) 32#32 64#32 65#32 := by
  after_results_simp <;> rfl

set_option maxRecDepth 8192 in
set_option maxHeartbeats 4000000 in
/-- The symmetry-id buckets, where the chain ids differ. -/
theorem first_v43 : after ops0 V (main_v43 : DevRef τ sig)
    = offsetIdx (noti (sameOf (V (main_arg2 : DevRef τ sig)))) (V (main_arg4 : DevRef τ sig)) 2#32 4#32 5#32 := by
  after_results_simp <;> rfl

set_option maxRecDepth 8192 in
set_option maxHeartbeats 4000000 in
/-- The entity bits. -/
theorem first_v14 : after ops0 V (main_v14 : DevRef τ sig) = sameOf (V (main_arg3 : DevRef τ sig)) := by
  after_results_simp <;> rfl

set_option maxRecDepth 8192 in
set_option maxHeartbeats 4000000 in
/-- Rows 0 … 65 of the weights. -/
theorem first_v44 : after ops0 V (main_v44 : DevRef τ sig)
    = extractStridedSlice S66x128 ![0, 0] (V (main_arg5 : DevRef τ sig)) slices_S139x128_S66x128_0_0 := by
  after_results_simp <;> rfl

set_option maxRecDepth 8192 in
set_option maxHeartbeats 4000000 in
/-- Rows 66 … 131 of the weights. -/
theorem first_v45 : after ops0 V (main_v45 : DevRef τ sig)
    = extractStridedSlice S66x128 ![66, 0] (V (main_arg5 : DevRef τ sig)) slices_S139x128_S66x128_66_0 := by
  after_results_simp <;> rfl

set_option maxRecDepth 8192 in
set_option maxHeartbeats 4000000 in
/-- Row 132 of the weights. -/
theorem first_v47 : after ops0 V (main_v47 : DevRef τ sig)
    = shapeCast S128 (extractStridedSlice S1x128 ![132, 0] (V (main_arg5 : DevRef τ sig)) slices_S139x128_S1x128_132_0)
        shapeCasts_S1x128_S128 := by
  after_results_simp <;> rfl

/-! The first stretch writes no argument. -/
set_option maxRecDepth 8192 in
set_option maxHeartbeats 4000000 in
theorem first_arg0 : after ops0 V (main_arg0 : DevRef τ sig) = V (main_arg0 : DevRef τ sig) := by after_results_simp
set_option maxRecDepth 8192 in
set_option maxHeartbeats 4000000 in
theorem first_arg1 : after ops0 V (main_arg1 : DevRef τ sig) = V (main_arg1 : DevRef τ sig) := by after_results_simp
set_option maxRecDepth 8192 in
set_option maxHeartbeats 4000000 in
theorem first_arg2 : after ops0 V (main_arg2 : DevRef τ sig) = V (main_arg2 : DevRef τ sig) := by after_results_simp
set_option maxRecDepth 8192 in
set_option maxHeartbeats 4000000 in
theorem first_arg3 : after ops0 V (main_arg3 : DevRef τ sig) = V (main_arg3 : DevRef τ sig) := by after_results_simp
set_option maxRecDepth 8192 in
set_option maxHeartbeats 4000000 in
theorem first_arg4 : after ops0 V (main_arg4 : DevRef τ sig) = V (main_arg4 : DevRef τ sig) := by after_results_simp
set_option maxRecDepth 8192 in
set_option maxHeartbeats 4000000 in
theorem first_arg5 : after ops0 V (main_arg5 : DevRef τ sig) = V (main_arg5 : DevRef τ sig) := by after_results_simp

end First

/-! ## The second stretch: the look-ups and the sum -/

/-- The entity term of the pairs' bits and a row of weights: the bit as a float at every channel, times the row at
    every pair. -/
def entOf (s : IVec S1x1024x1024 1) (row : FVec F S128 .f32) : FVec F S1x1024x1024x128 .f32 :=
  mulf
    (broadcastInDim S1x1024x1024x128 ![0, 1, 2, 3] bcast_S1x1024x1024x1_S1x1024x1024x128_0_1_2_3
      (uitofp .f32 (broadcastInDim S1x1024x1024x1 ![0, 1, 2] bcast_S1x1024x1024_S1x1024x1024x1_0_1_2 s)))
    (broadcastInDim S1x1024x1024x128 ![0, 1, 2, 3] bcast_S1x1x1x128_S1x1024x1024x128_0_1_2_3
      (broadcastInDim S1x1x1x128 ![3] bcast_S128_S1x1x1x128_3 row))

/-! ### Contents at a value's type and at its buffer's type

A typed reference moves contents between the value's type and the buffer's type along the equation of the two; there
and back is the identity, and at a literal reference, where the two types are the same, each way is. -/

/-- To the buffer's type and back. -/
theorem ofBuf_toBuf {T : BufTy} (x : TRef sig T) (v : T.Contents (Elt F)) : x.ofBuf (x.toBuf v) = v := by
  obtain ⟨r, h, h2, h3⟩ := x
  subst h
  rfl

theorem toBuf_v49 (h1 h2 h3) (v : (⟨S1x1024x1024x128, .f32⟩ : BufTy).Contents (Elt F)) :
    (TRef.of (T := ⟨S1x1024x1024x128, .f32⟩) main_v49 h1 h2 h3).toBuf v = v := rfl
theorem toBuf_v50 (h1 h2 h3) (v : (⟨S1x1024x1024x128, .f32⟩ : BufTy).Contents (Elt F)) :
    (TRef.of (T := ⟨S1x1024x1024x128, .f32⟩) main_v50 h1 h2 h3).toBuf v = v := rfl
theorem toBuf_v59 (h1 h2 h3) (v : (⟨S1x1024x1024x128, .f32⟩ : BufTy).Contents (Elt F)) :
    (TRef.of (T := ⟨S1x1024x1024x128, .f32⟩) main_v59 h1 h2 h3).toBuf v = v := rfl
theorem ofBuf_v44 (h1 h2 h3) (v : (⟨S66x128, .f32⟩ : BufTy).Contents (Elt F)) :
    (TRef.of (T := ⟨S66x128, .f32⟩) main_v44 h1 h2 h3).ofBuf v = v := rfl
theorem ofBuf_v45 (h1 h2 h3) (v : (⟨S66x128, .f32⟩ : BufTy).Contents (Elt F)) :
    (TRef.of (T := ⟨S66x128, .f32⟩) main_v45 h1 h2 h3).ofBuf v = v := rfl
theorem ofBuf_v48 (h1 h2 h3) (v : (⟨S6x128, .f32⟩ : BufTy).Contents (Elt F)) :
    (TRef.of (T := ⟨S6x128, .f32⟩) main_v48 h1 h2 h3).ofBuf v = v := rfl
theorem ofBuf_v23 (h1 h2 h3) (v : (⟨S1x1024x1024, .i32⟩ : BufTy).Contents (Elt F)) :
    (TRef.of (T := ⟨S1x1024x1024, .i32⟩) main_v23 h1 h2 h3).ofBuf v = v := rfl
theorem ofBuf_v33 (h1 h2 h3) (v : (⟨S1x1024x1024, .i32⟩ : BufTy).Contents (Elt F)) :
    (TRef.of (T := ⟨S1x1024x1024, .i32⟩) main_v33 h1 h2 h3).ofBuf v = v := rfl
theorem ofBuf_v43 (h1 h2 h3) (v : (⟨S1x1024x1024, .i32⟩ : BufTy).Contents (Elt F)) :
    (TRef.of (T := ⟨S1x1024x1024, .i32⟩) main_v43 h1 h2 h3).ofBuf v = v := rfl

section Second

variable (W : Valuation τ sig (Elt F))

/-! ### The first look-up -/

-- the reduction and the gather are folds and searches over their operand's elements: the equations never look inside
attribute [local irreducible] Host.reduce Host.gather in
set_option maxRecDepth 8192 in
set_option maxHeartbeats 4000000 in
/-- The look-up of the residue-index buckets in rows 0 … 65. -/
theorem a_v49 : after ops1a W (main_v49 : DevRef τ sig)
    = takeRows gather_S66x128_S1x1024x1024x1_S1x1024x1024x128_3_0_n_n_0_3_1128 66#32 65#32
        (W (main_v44 : DevRef τ sig)) (W (main_v23 : DevRef τ sig)) := by
  after_results_simp
  simp only [ofBuf_toBuf, toBuf_v49, ofBuf_v44, ofBuf_v23]
  rfl

set_option maxRecDepth 8192 in
set_option maxHeartbeats 4000000 in
/-- Rows 133 … 138 of the weights. -/
theorem a_v48 : after ops1a W (main_v48 : DevRef τ sig)
    = extractStridedSlice S6x128 ![133, 0] (W (main_arg5 : DevRef τ sig)) slices_S139x128_S6x128_133_0 := by
  after_results_simp <;> rfl

set_option maxRecDepth 8192 in
set_option maxHeartbeats 4000000 in
theorem a_v45 : after ops1a W (main_v45 : DevRef τ sig) = W (main_v45 : DevRef τ sig) := by after_results_simp
set_option maxRecDepth 8192 in
set_option maxHeartbeats 4000000 in
theorem a_v33 : after ops1a W (main_v33 : DevRef τ sig) = W (main_v33 : DevRef τ sig) := by after_results_simp
set_option maxRecDepth 8192 in
set_option maxHeartbeats 4000000 in
theorem a_v14 : after ops1a W (main_v14 : DevRef τ sig) = W (main_v14 : DevRef τ sig) := by after_results_simp
set_option maxRecDepth 8192 in
set_option maxHeartbeats 4000000 in
theorem a_v47 : after ops1a W (main_v47 : DevRef τ sig) = W (main_v47 : DevRef τ sig) := by after_results_simp
set_option maxRecDepth 8192 in
set_option maxHeartbeats 4000000 in
theorem a_v43 : after ops1a W (main_v43 : DevRef τ sig) = W (main_v43 : DevRef τ sig) := by after_results_simp

/-! ### The second look-up -/

attribute [local irreducible] Host.reduce Host.gather in
set_option maxRecDepth 8192 in
set_option maxHeartbeats 4000000 in
/-- The look-up of the token-index buckets in rows 66 … 131. -/
theorem b_v50 : after ops1b W (main_v50 : DevRef τ sig)
    = takeRows gather_S66x128_S1x1024x1024x1_S1x1024x1024x128_3_0_n_n_0_3_1128 66#32 65#32
        (W (main_v45 : DevRef τ sig)) (W (main_v33 : DevRef τ sig)) := by
  after_results_simp
  simp only [ofBuf_toBuf, toBuf_v50, ofBuf_v45, ofBuf_v33]
  rfl

set_option maxRecDepth 8192 in
set_option maxHeartbeats 4000000 in
theorem b_v49 : after ops1b W (main_v49 : DevRef τ sig) = W (main_v49 : DevRef τ sig) := by after_results_simp
set_option maxRecDepth 8192 in
set_option maxHeartbeats 4000000 in
theorem b_v48 : after ops1b W (main_v48 : DevRef τ sig) = W (main_v48 : DevRef τ sig) := by after_results_simp
set_option maxRecDepth 8192 in
set_option maxHeartbeats 4000000 in
theorem b_v14 : after ops1b W (main_v14 : DevRef τ sig) = W (main_v14 : DevRef τ sig) := by after_results_simp
set_option maxRecDepth 8192 in
set_option maxHeartbeats 4000000 in
theorem b_v47 : after ops1b W (main_v47 : DevRef τ sig) = W (main_v47 : DevRef τ sig) := by after_results_simp
set_option maxRecDepth 8192 in
set_option maxHeartbeats 4000000 in
theorem b_v43 : after ops1b W (main_v43 : DevRef τ sig) = W (main_v43 : DevRef τ sig) := by after_results_simp

/-! ### The partial sum with the entity term -/

set_option maxRecDepth 8192 in
set_option maxHeartbeats 4000000 in
theorem c_v58 : after ops1c W (main_v58 : DevRef τ sig)
    = addf (addf (W (main_v49 : DevRef τ sig)) (W (main_v50 : DevRef τ sig))) (entOf (W (main_v14 : DevRef τ sig)) (W (main_v47 : DevRef τ sig))) := by
  after_results_simp <;> rfl

set_option maxRecDepth 8192 in
set_option maxHeartbeats 4000000 in
theorem c_v48 : after ops1c W (main_v48 : DevRef τ sig) = W (main_v48 : DevRef τ sig) := by after_results_simp
set_option maxRecDepth 8192 in
set_option maxHeartbeats 4000000 in
theorem c_v43 : after ops1c W (main_v43 : DevRef τ sig) = W (main_v43 : DevRef τ sig) := by after_results_simp

/-! ### The third look-up and the last sum -/

attribute [local irreducible] Host.reduce Host.gather in
set_option maxRecDepth 8192 in
set_option maxHeartbeats 4000000 in
theorem d_v60 : after ops1d W (main_v60 : DevRef τ sig)
    = addf (W (main_v58 : DevRef τ sig))
        (takeRows gather_S6x128_S1x1024x1024x1_S1x1024x1024x128_3_0_n_n_0_3_1128 6#32 5#32
          (W (main_v48 : DevRef τ sig)) (W (main_v43 : DevRef τ sig))) := by
  after_results_simp
  simp only [ofBuf_toBuf, toBuf_v59, ofBuf_v48, ofBuf_v43]
  rfl

/-! ### The four pieces in order -/

/-- The result after the second stretch, of what the first left. -/
theorem second_v60 : after ops1 W (main_v60 : DevRef τ sig)
    = addf
        (addf
          (addf
            (takeRows gather_S66x128_S1x1024x1024x1_S1x1024x1024x128_3_0_n_n_0_3_1128 66#32 65#32
              (W (main_v44 : DevRef τ sig)) (W (main_v23 : DevRef τ sig)))
            (takeRows gather_S66x128_S1x1024x1024x1_S1x1024x1024x128_3_0_n_n_0_3_1128 66#32 65#32
              (W (main_v45 : DevRef τ sig)) (W (main_v33 : DevRef τ sig))))
          (entOf (W (main_v14 : DevRef τ sig)) (W (main_v47 : DevRef τ sig))))
        (takeRows gather_S6x128_S1x1024x1024x1_S1x1024x1024x128_3_0_n_n_0_3_1128 6#32 5#32
          (extractStridedSlice S6x128 ![133, 0] (W (main_arg5 : DevRef τ sig)) slices_S139x128_S6x128_133_0)
          (W (main_v43 : DevRef τ sig))) := by
  rw [ops1_cut, after_app, after_app, after_app, d_v60, c_v58, c_v48, c_v43, b_v50, b_v49, b_v48, b_v14, b_v47, b_v43,
    a_v49, a_v48, a_v45, a_v33, a_v14, a_v47, a_v43]

/-! The second stretch writes no argument. -/
set_option maxRecDepth 8192 in
set_option maxHeartbeats 4000000 in
theorem second_arg0 : after ops1 W (main_arg0 : DevRef τ sig) = W (main_arg0 : DevRef τ sig) := by after_results_simp
set_option maxRecDepth 8192 in
set_option maxHeartbeats 4000000 in
theorem second_arg1 : after ops1 W (main_arg1 : DevRef τ sig) = W (main_arg1 : DevRef τ sig) := by after_results_simp
set_option maxRecDepth 8192 in
set_option maxHeartbeats 4000000 in
theorem second_arg2 : after ops1 W (main_arg2 : DevRef τ sig) = W (main_arg2 : DevRef τ sig) := by after_results_simp
set_option maxRecDepth 8192 in
set_option maxHeartbeats 4000000 in
theorem second_arg3 : after ops1 W (main_arg3 : DevRef τ sig) = W (main_arg3 : DevRef τ sig) := by after_results_simp
set_option maxRecDepth 8192 in
set_option maxHeartbeats 4000000 in
theorem second_arg4 : after ops1 W (main_arg4 : DevRef τ sig) = W (main_arg4 : DevRef τ sig) := by after_results_simp
set_option maxRecDepth 8192 in
set_option maxHeartbeats 4000000 in
theorem second_arg5 : after ops1 W (main_arg5 : DevRef τ sig) = W (main_arg5 : DevRef τ sig) := by after_results_simp

end Second

/-! ## The whole line -/

section Whole

variable (V : Valuation τ sig (Elt F))

/-- The result buffer after the whole line is `refOut` of the arguments' contents. -/
theorem out_eq : after ops V (main_v60 : DevRef τ sig)
    = refOut (V (main_arg0 : DevRef τ sig)) (V (main_arg1 : DevRef τ sig)) (V (main_arg2 : DevRef τ sig))
        (V (main_arg3 : DevRef τ sig)) (V (main_arg4 : DevRef τ sig)) (V (main_arg5 : DevRef τ sig)) := by
  rw [show (ops : List (HloOp τ sig (Elt F))) = ops0 ++ ops1 from rfl, after_app, second_v60,
    first_v23, first_v33, first_v43, first_v14, first_v44, first_v45, first_v47, first_arg5]
  rfl

theorem arg0_eq : after ops V (main_arg0 : DevRef τ sig) = V (main_arg0 : DevRef τ sig) := by
  rw [show (ops : List (HloOp τ sig (Elt F))) = ops0 ++ ops1 from rfl, after_app, second_arg0, first_arg0]
theorem arg1_eq : after ops V (main_arg1 : DevRef τ sig) = V (main_arg1 : DevRef τ sig) := by
  rw [show (ops : List (HloOp τ sig (Elt F))) = ops0 ++ ops1 from rfl, after_app, second_arg1, first_arg1]
theorem arg2_eq : after ops V (main_arg2 : DevRef τ sig) = V (main_arg2 : DevRef τ sig) := by
  rw [show (ops : List (HloOp τ sig (Elt F))) = ops0 ++ ops1 from rfl, after_app, second_arg2, first_arg2]
theorem arg3_eq : after ops V (main_arg3 : DevRef τ sig) = V (main_arg3 : DevRef τ sig) := by
  rw [show (ops : List (HloOp τ sig (Elt F))) = ops0 ++ ops1 from rfl, after_app, second_arg3, first_arg3]
theorem arg4_eq : after ops V (main_arg4 : DevRef τ sig) = V (main_arg4 : DevRef τ sig) := by
  rw [show (ops : List (HloOp τ sig (Elt F))) = ops0 ++ ops1 from rfl, after_app, second_arg4, first_arg4]
theorem arg5_eq : after ops V (main_arg5 : DevRef τ sig) = V (main_arg5 : DevRef τ sig) := by
  rw [show (ops : List (HloOp τ sig (Elt F))) = ops0 ++ ops1 from rfl, after_app, second_arg5, first_arg5]

end Whole

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v60).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.Hand

end
-- ==== Proof.RefGather.lean ====
/-
  A row look-up read at an index: the gather of a table of N rows at start indices [1, 1024, 1024, 1] gives, at
  (0, i, j, c), the table's entry in column c of the row the start index names, read signed and clamped into
  [0, N - 1].
-/
import proofs.«408695_j88175678587717_3_alg».proof.Proof.Gen.ReferenceIdeal
import Idealize.ShloMosaic.Lib.ValueIdx

noncomputable section

namespace Cert.ReferenceIdeal.Hand

open Cert.ReferenceIdeal Cert.ReferenceIdeal.Gen Idealize.ShloMosaic Idealize.ShloMosaic.ValueIdx

variable {α : Type} {w : Nat}

theorem gather66_apply (x : S66x128.Idx → α) (idx : IVec S1x1024x1024x1 w) (i j : Fin 1024) (c : Fin 128) :
    Host.gather gather_S66x128_S1x1024x1024x1_S1x1024x1024x128_3_0_n_n_0_3_1128 x idx (ix4 0 i j c)
      = x (ix2 ⟨min (idx (ix4 0 i j 0)).toInt.toNat 65, by omega⟩ c) := by
  unfold Host.gather
  congr 1
  funext a
  refine Fin.ext ?_
  match a with
  | ⟨0, _⟩ =>
    show gather_S66x128_S1x1024x1024x1_S1x1024x1024x128_3_0_n_n_0_3_1128.start (ix4 0 i j c) idx 0
      + gather_S66x128_S1x1024x1024x1_S1x1024x1024x128_3_0_n_n_0_3_1128.batchCoord (ix4 0 i j c) 0
      + gather_S66x128_S1x1024x1024x1_S1x1024x1024x128_3_0_n_n_0_3_1128.offCoord (ix4 0 i j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S66x128_S1x1024x1024x1_S1x1024x1024x128_3_0_n_n_0_3_1128.startIndexMap from List.mem_singleton.mpr rfl)]
    have hsi : gather_S66x128_S1x1024x1024x1_S1x1024x1024x128_3_0_n_n_0_3_1128.siIdx (ix4 0 i j c)
        ⟨List.idxOf (0 : Fin 2) gather_S66x128_S1x1024x1024x1_S1x1024x1024x128_3_0_n_n_0_3_1128.startIndexMap,
          List.idxOf_lt_length_iff.2 (List.mem_singleton.mpr rfl)⟩ = ix4 0 i j 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S66x128_S1x1024x1024x1_S1x1024x1024x128_3_0_n_n_0_3_1128.start (ix4 0 i j c) idx 1
      + gather_S66x128_S1x1024x1024x1_S1x1024x1024x128_3_0_n_n_0_3_1128.batchCoord (ix4 0 i j c) 1
      + gather_S66x128_S1x1024x1024x1_S1x1024x1024x128_3_0_n_n_0_3_1128.offCoord (ix4 0 i j c) 1 = c.val
    rw [GatherDims.batchCoord_eq_zero _ _ _ List.not_mem_nil]
    unfold GatherDims.start GatherDims.offCoord
    rw [dif_neg (show ¬ (1 : Fin 2) ∈ gather_S66x128_S1x1024x1024x1_S1x1024x1024x128_3_0_n_n_0_3_1128.startIndexMap by decide),
      dif_pos (show (1 : Fin 2) ∈ gather_S66x128_S1x1024x1024x1_S1x1024x1024x128_3_0_n_n_0_3_1128.sKept by decide)]
    simp only [Nat.zero_add]
    rfl

theorem gather6_apply (x : S6x128.Idx → α) (idx : IVec S1x1024x1024x1 w) (i j : Fin 1024) (c : Fin 128) :
    Host.gather gather_S6x128_S1x1024x1024x1_S1x1024x1024x128_3_0_n_n_0_3_1128 x idx (ix4 0 i j c)
      = x (ix2 ⟨min (idx (ix4 0 i j 0)).toInt.toNat 5, by omega⟩ c) := by
  unfold Host.gather
  congr 1
  funext a
  refine Fin.ext ?_
  match a with
  | ⟨0, _⟩ =>
    show gather_S6x128_S1x1024x1024x1_S1x1024x1024x128_3_0_n_n_0_3_1128.start (ix4 0 i j c) idx 0
      + gather_S6x128_S1x1024x1024x1_S1x1024x1024x128_3_0_n_n_0_3_1128.batchCoord (ix4 0 i j c) 0
      + gather_S6x128_S1x1024x1024x1_S1x1024x1024x128_3_0_n_n_0_3_1128.offCoord (ix4 0 i j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S6x128_S1x1024x1024x1_S1x1024x1024x128_3_0_n_n_0_3_1128.startIndexMap from List.mem_singleton.mpr rfl)]
    have hsi : gather_S6x128_S1x1024x1024x1_S1x1024x1024x128_3_0_n_n_0_3_1128.siIdx (ix4 0 i j c)
        ⟨List.idxOf (0 : Fin 2) gather_S6x128_S1x1024x1024x1_S1x1024x1024x128_3_0_n_n_0_3_1128.startIndexMap,
          List.idxOf_lt_length_iff.2 (List.mem_singleton.mpr rfl)⟩ = ix4 0 i j 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S6x128_S1x1024x1024x1_S1x1024x1024x128_3_0_n_n_0_3_1128.start (ix4 0 i j c) idx 1
      + gather_S6x128_S1x1024x1024x1_S1x1024x1024x128_3_0_n_n_0_3_1128.batchCoord (ix4 0 i j c) 1
      + gather_S6x128_S1x1024x1024x1_S1x1024x1024x128_3_0_n_n_0_3_1128.offCoord (ix4 0 i j c) 1 = c.val
    rw [GatherDims.batchCoord_eq_zero _ _ _ List.not_mem_nil]
    unfold GatherDims.start GatherDims.offCoord
    rw [dif_neg (show ¬ (1 : Fin 2) ∈ gather_S6x128_S1x1024x1024x1_S1x1024x1024x128_3_0_n_n_0_3_1128.startIndexMap by decide),
      dif_pos (show (1 : Fin 2) ∈ gather_S6x128_S1x1024x1024x1_S1x1024x1024x128_3_0_n_n_0_3_1128.sKept by decide)]
    simp only [Nat.zero_add]
    rfl

end Cert.ReferenceIdeal.Hand

end
-- ==== Proof.RefValue.lean ====
/-
  The reference's result term, read at an index, is the specification.

  The term is read piece by piece at the index (0, i, j, c): the broadcasts give the words of tokens i and j, the
  bucket chain is the specification's bucket, the bucket lies in the table's range, so the index normalisation is
  the identity and the in-range mask is set, the gather reads the row the bucket names, and the entity factor is
  the equality bit as a real number.
-/
import proofs.«408695_j88175678587717_3_alg».proof.Proof.RefTerm
import proofs.«408695_j88175678587717_3_alg».proof.Proof.PairSpec
import proofs.«408695_j88175678587717_3_alg».proof.Proof.RefGather
import Idealize.ShloMosaic.Lib.ValueIdx
import Idealize.ShloMosaic.Lib.ReduceAll
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx Cert.PairBias

/-! ## Broadcasts and the bucket chain read at a pair -/

/-- The row broadcast reads token `i`. -/
theorem rowOf_apply (a : IVec S1x1024 32) (i j : Fin 1024) : rowOf a (ix3 0 i j) = a (ix2 0 i) :=
  congrArg a (funext fun d => Fin.ext (by match d with | ⟨0, _⟩ => rfl | ⟨1, _⟩ => rfl))

/-- The column broadcast reads token `j`. -/
theorem colOf_apply (a : IVec S1x1024 32) (i j : Fin 1024) : colOf a (ix3 0 i j) = a (ix2 0 j) :=
  congrArg a (funext fun d => Fin.ext (by match d with | ⟨0, _⟩ => rfl | ⟨1, _⟩ => rfl))

theorem splat_apply (b : BitVec 32) (y : S1x1024x1024.Idx) : splat b y = b := rfl

/-- The sameness bit of a pair is the equality bit of its two words. -/
theorem sameOf_apply (a : IVec S1x1024 32) (i j : Fin 1024) :
    sameOf a (ix3 0 i j) = eqBit (a (ix2 0 i)) (a (ix2 0 j)) := by
  show IntOp.cmpi .eq (rowOf a (ix3 0 i j)) (colOf a (ix3 0 i j)) = _
  rw [rowOf_apply, colOf_apply]; rfl

/-- The bucket array at a pair is the specification's bucket of the pair's words. -/
theorem offsetIdx_apply (same : IVec S1x1024x1024 1) (a : IVec S1x1024 32) (r hi sent : BitVec 32) (i j : Fin 1024) :
    offsetIdx same a r hi sent (ix3 0 i j) = bucket r hi sent (same (ix3 0 i j)) (a (ix2 0 i)) (a (ix2 0 j)) := by
  show Scalar.select (same (ix3 0 i j)) (IntOp.minsi hi (IntOp.maxsi 0#32
    (IntOp.addi (IntOp.subi (rowOf a (ix3 0 i j)) (colOf a (ix3 0 i j))) r))) sent = _
  rw [rowOf_apply, colOf_apply]; rfl

/-- A non-negative index is its own normalisation. -/
theorem normIdx_apply (n : BitVec 32) (idx : IVec S1x1024x1024 32) (y : S1x1024x1024.Idx) (h : 0 ≤ (idx y).toInt) :
    normIdx n idx y = idx y := by
  show Scalar.select (IntOp.cmpi .slt (idx y) 0#32) (IntOp.addi (idx y) n) (idx y) = _
  unfold Scalar.select
  rw [if_neg]
  intro hc
  have := IntOp.cmpi_slt.1 hc
  have h0 : (0#32 : BitVec 32).toInt = 0 := by decide
  omega

/-- The start indices at (a, i, j, d) are the normalised indices at (0, i, j). -/
theorem startIdx_apply (n : BitVec 32) (idx : IVec S1x1024x1024 32) (a : Fin 1) (i j : Fin 1024) (d : Fin 1) :
    startIdx n idx (ix4 a i j d) = normIdx n idx (ix3 0 i j) :=
  congrArg (normIdx n idx) (funext fun k => Fin.ext (by match k with | ⟨0, _⟩ => rfl | ⟨1, _⟩ => rfl | ⟨2, _⟩ => rfl))

/-! ## The in-range mask -/

/-- A left fold by `and` from 1 over words that are all 1 is 1. -/
theorem foldl_andi_one {ι : Type} (x : ι → BitVec 1) :
    ∀ (l : List ι), (∀ k ∈ l, x k = 1#1) → l.foldl (fun r k => IntOp.andi r (x k)) 1#1 = 1#1
  | [], _ => rfl
  | a :: l, h => by
    rw [List.foldl_cons, h a (List.mem_cons_self ..)]
    exact foldl_andi_one x l (fun k hk => h k (List.mem_cons_of_mem _ hk))

/-- The mask is set at a pair whose index lies in `[0, last]`. -/
theorem inRange_apply (n last : BitVec 32) (idx : IVec S1x1024x1024 32) (i j : Fin 1024)
    (h0 : 0 ≤ (idx (ix3 0 i j)).toInt) (h1 : (idx (ix3 0 i j)).toInt ≤ last.toInt) :
    inRange n last idx (ix3 0 i j) = 1#1 := by
  unfold inRange
  rw [Host.reduce_eq_foldl]
  refine foldl_andi_one _ _ ?_
  intro y hy
  have hd := of_decide_eq_true (List.mem_filter.1 hy).2
  obtain ⟨a, p, q, d, rfl⟩ : ∃ (a : Fin 1) (p q : Fin 1024) (d : Fin 1), y = ix4 a p q d :=
    ⟨y 0, y 1, y 2, y 3, eq_ix4 y⟩
  have hp : p = i := Fin.ext (congrArg (fun z : S1x1024x1024.Idx => (z 1).val) hd)
  have hq : q = j := Fin.ext (congrArg (fun z : S1x1024x1024.Idx => (z 2).val) hd)
  subst hp hq
  show IntOp.andi (IntOp.cmpi .sge (startIdx n idx (ix4 a p q d)) 0#32)
    (IntOp.cmpi .sle (startIdx n idx (ix4 a p q d)) last) = 1#1
  rw [startIdx_apply, normIdx_apply _ _ _ h0]
  have hz : (0#32 : BitVec 32).toInt = 0 := by decide
  exact IntOp.andi_eq_one.2 ⟨IntOp.cmpi_sge.2 (by omega), IntOp.cmpi_sle.2 h1⟩

/-! ## The row look-up read at an index -/

/-- A word that is non-negative read signed is, read signed, its unsigned value. -/
theorem toInt_toNat_of_nonneg (v : BitVec 32) (h0 : 0 ≤ v.toInt) : v.toInt.toNat = v.toNat := by
  have hc := BitVec.toInt_eq_toNat_cond v
  have hl := v.isLt
  split at hc <;> omega

/-- The row look-up at (0, i, j, c), where the pair's index lies in `[0, last]`, is the gather there: the mask is
    set. -/
theorem takeRows_apply {S : Shape} (dims : GatherDims S S1x1024x1024x1 S1x1024x1024x128)
    (n last : BitVec 32) (tbl : FVec Ideal S .f32) (idx : IVec S1x1024x1024 32) (i j : Fin 1024) (c : Fin 128)
    (h0 : 0 ≤ (idx (ix3 0 i j)).toInt) (h1 : (idx (ix3 0 i j)).toInt ≤ last.toInt) :
    takeRows (F := Ideal) dims n last tbl idx (ix4 0 i j c) = Host.gather dims tbl (startIdx n idx) (ix4 0 i j c) := by
  unfold takeRows
  rw [select_apply]
  have hm : broadcastInDim S1x1024x1024x128 ![0, 1, 2] bcast_S1x1024x1024_S1x1024x1024x128_0_1_2
      (inRange n last idx) (ix4 0 i j c) = 1#1 := by
    have : ∀ y : S1x1024x1024.Idx, y = ix3 0 i j → inRange n last idx y = 1#1 := by
      intro y hy; rw [hy]; exact inRange_apply n last idx i j h0 h1
    exact this _ (funext fun k => Fin.ext (by match k with | ⟨0, _⟩ => rfl | ⟨1, _⟩ => rfl | ⟨2, _⟩ => rfl))
  rw [hm, select_one]

/-- The clamped row of the gather is the clamped unsigned value of the pair's index, when that is non-negative. -/
theorem startRow_eq (n : BitVec 32) (idx : IVec S1x1024x1024 32) (i j : Fin 1024) (v : BitVec 32)
    (hv : idx (ix3 0 i j) = v) (h0 : 0 ≤ v.toInt) (m : Nat) :
    min (startIdx n idx (ix4 0 i j 0)).toInt.toNat m = min v.toNat m := by
  subst hv
  rw [startIdx_apply, normIdx_apply _ _ _ h0, toInt_toNat_of_nonneg _ h0]

/-! ## Slices of the weight table, and the entity term -/

theorem slice66_0_apply (w : FVec Ideal S139x128 .f32) (r : Fin 66) (c : Fin 128) :
    extractStridedSlice S66x128 ![0, 0] w slices_S139x128_S66x128_0_0 (ix2 r c) = w (ix2 ⟨0 + r.val, by omega⟩ c) :=
  congrArg w (funext fun a => Fin.ext (by match a with | ⟨0, _⟩ => rfl | ⟨1, _⟩ => exact Nat.zero_add _))

theorem slice66_66_apply (w : FVec Ideal S139x128 .f32) (r : Fin 66) (c : Fin 128) :
    extractStridedSlice S66x128 ![66, 0] w slices_S139x128_S66x128_66_0 (ix2 r c) = w (ix2 ⟨66 + r.val, by omega⟩ c) :=
  congrArg w (funext fun a => Fin.ext (by match a with | ⟨0, _⟩ => rfl | ⟨1, _⟩ => exact Nat.zero_add _))

theorem slice6_133_apply (w : FVec Ideal S139x128 .f32) (r : Fin 6) (c : Fin 128) :
    extractStridedSlice S6x128 ![133, 0] w slices_S139x128_S6x128_133_0 (ix2 r c) = w (ix2 ⟨133 + r.val, by omega⟩ c) :=
  congrArg w (funext fun a => Fin.ext (by match a with | ⟨0, _⟩ => rfl | ⟨1, _⟩ => exact Nat.zero_add _))

/-- The entity term at (0, i, j, c): the equality bit of the two entity ids as a real number, times row 132. -/
theorem entTerm_apply (a3 : IVec S1x1024 32) (w : FVec Ideal S139x128 .f32) (i j : Fin 1024) (c : Fin 128) :
    entTerm (F := Ideal) a3 w (ix4 0 i j c)
      = (((eqBit (a3 (ix2 0 i)) (a3 (ix2 0 j))).toNat : ℝ) : EReal) * w (ix2 ⟨132, by decide⟩ c) := by
  unfold entTerm
  rw [mulf_apply]
  congr 1
  · show (((sameOf a3 _).toNat : ℝ) : EReal) = _
    have : ∀ y : S1x1024x1024.Idx, y = ix3 0 i j → (((sameOf a3 y).toNat : ℝ) : EReal)
        = (((eqBit (a3 (ix2 0 i)) (a3 (ix2 0 j))).toNat : ℝ) : EReal) := by
      intro y hy; rw [hy, sameOf_apply]
    exact this _ (funext fun k => Fin.ext (by match k with | ⟨0, _⟩ => rfl | ⟨1, _⟩ => rfl | ⟨2, _⟩ => rfl))
  · have : ∀ y : S128.Idx, y = ix1 c →
        shapeCast S128 (extractStridedSlice S1x128 ![132, 0] w slices_S139x128_S1x128_132_0) shapeCasts_S1x128_S128 y
          = w (ix2 ⟨132, by decide⟩ c) := by
      intro y hy
      rw [hy, shapeCast_1a_a_apply]
      exact congrArg w (funext fun a => Fin.ext (by match a with | ⟨0, _⟩ => rfl | ⟨1, _⟩ => exact Nat.zero_add _))
    exact this _ (funext fun k => Fin.ext (by match k with | ⟨0, _⟩ => rfl))

/-! ## The three look-ups -/

theorem toInt_65 : (65#32 : BitVec 32).toInt = 65 := by decide
theorem toInt_5 : (5#32 : BitVec 32).toInt = 5 := by decide

/-- A small unsigned value bounds the signed reading. -/
theorem toInt_le_of_toNat_le (v : BitVec 32) (m : Nat) (h0 : 0 ≤ v.toInt) (h : v.toNat ≤ m) : v.toInt ≤ (m : Int) := by
  have := toInt_toNat_of_nonneg v h0
  omega

theorem posTerm_apply (a0 : IVec S1x1024 32) (w : FVec Ideal S139x128 .f32) (i j : Fin 1024) (c : Fin 128) :
    takeRows (F := Ideal) gather_S66x128_S1x1024x1024x1_S1x1024x1024x128_3_0_n_n_0_3_1128 66#32 65#32
        (extractStridedSlice S66x128 ![0, 0] w slices_S139x128_S66x128_0_0)
        (offsetIdx (sameOf a0) a0 32#32 64#32 65#32) (ix4 0 i j c)
      = w (ix2 (rowAt 0 65 (by decide) (posB (a0 (ix2 0 i)) (a0 (ix2 0 j)))) c) := by
  have hr := posB_range (a0 (ix2 0 i)) (a0 (ix2 0 j))
  have hv : offsetIdx (sameOf a0) a0 32#32 64#32 65#32 (ix3 0 i j) = posB (a0 (ix2 0 i)) (a0 (ix2 0 j)) := by
    rw [offsetIdx_apply, sameOf_apply]; rfl
  rw [takeRows_apply _ _ _ _ _ i j c (by rw [hv]; exact hr.1)
    (by rw [hv, toInt_65]; exact toInt_le_of_toNat_le _ 65 hr.1 hr.2), gather66_apply, slice66_0_apply]
  refine congrArg w (congrArg (fun r => ix2 r c) (Fin.ext ?_))
  exact congrArg (0 + ·) (startRow_eq _ _ i j _ hv hr.1 65)

theorem tokTerm_apply (a0 a1 a2 : IVec S1x1024 32) (w : FVec Ideal S139x128 .f32) (i j : Fin 1024) (c : Fin 128) :
    takeRows (F := Ideal) gather_S66x128_S1x1024x1024x1_S1x1024x1024x128_3_0_n_n_0_3_1128 66#32 65#32
        (extractStridedSlice S66x128 ![66, 0] w slices_S139x128_S66x128_66_0)
        (offsetIdx (andi (sameOf a0) (sameOf a2)) a1 32#32 64#32 65#32) (ix4 0 i j c)
      = w (ix2 (rowAt 66 65 (by decide)
          (tokB (a0 (ix2 0 i)) (a0 (ix2 0 j)) (a2 (ix2 0 i)) (a2 (ix2 0 j)) (a1 (ix2 0 i)) (a1 (ix2 0 j)))) c) := by
  have hr := tokB_range (a0 (ix2 0 i)) (a0 (ix2 0 j)) (a2 (ix2 0 i)) (a2 (ix2 0 j)) (a1 (ix2 0 i)) (a1 (ix2 0 j))
  have hv : offsetIdx (andi (sameOf a0) (sameOf a2)) a1 32#32 64#32 65#32 (ix3 0 i j)
      = tokB (a0 (ix2 0 i)) (a0 (ix2 0 j)) (a2 (ix2 0 i)) (a2 (ix2 0 j)) (a1 (ix2 0 i)) (a1 (ix2 0 j)) := by
    rw [offsetIdx_apply]
    show bucket _ _ _ (IntOp.andi (sameOf a0 (ix3 0 i j)) (sameOf a2 (ix3 0 i j))) _ _ = _
    rw [sameOf_apply, sameOf_apply]; rfl
  rw [takeRows_apply _ _ _ _ _ i j c (by rw [hv]; exact hr.1)
    (by rw [hv, toInt_65]; exact toInt_le_of_toNat_le _ 65 hr.1 hr.2), gather66_apply, slice66_66_apply]
  refine congrArg w (congrArg (fun r => ix2 r c) (Fin.ext ?_))
  exact congrArg (66 + ·) (startRow_eq _ _ i j _ hv hr.1 65)

theorem chainTerm_apply (a2 a4 : IVec S1x1024 32) (w : FVec Ideal S139x128 .f32) (i j : Fin 1024) (c : Fin 128) :
    takeRows (F := Ideal) gather_S6x128_S1x1024x1024x1_S1x1024x1024x128_3_0_n_n_0_3_1128 6#32 5#32
        (extractStridedSlice S6x128 ![133, 0] w slices_S139x128_S6x128_133_0)
        (offsetIdx (noti (sameOf a2)) a4 2#32 4#32 5#32) (ix4 0 i j c)
      = w (ix2 (rowAt 133 5 (by decide)
          (chainB (a2 (ix2 0 i)) (a2 (ix2 0 j)) (a4 (ix2 0 i)) (a4 (ix2 0 j)))) c) := by
  have hr := chainB_range (a2 (ix2 0 i)) (a2 (ix2 0 j)) (a4 (ix2 0 i)) (a4 (ix2 0 j))
  have hv : offsetIdx (noti (sameOf a2)) a4 2#32 4#32 5#32 (ix3 0 i j)
      = chainB (a2 (ix2 0 i)) (a2 (ix2 0 j)) (a4 (ix2 0 i)) (a4 (ix2 0 j)) := by
    rw [offsetIdx_apply]
    show bucket _ _ _ (~~~ (sameOf a2 (ix3 0 i j))) _ _ = _
    rw [sameOf_apply]; rfl
  rw [takeRows_apply _ _ _ _ _ i j c (by rw [hv]; exact hr.1)
    (by rw [hv, toInt_5]; exact toInt_le_of_toNat_le _ 5 hr.1 hr.2), gather6_apply, slice6_133_apply]
  refine congrArg w (congrArg (fun r => ix2 r c) (Fin.ext ?_))
  exact congrArg (133 + ·) (startRow_eq _ _ i j _ hv hr.1 5)

/-! ## The result -/

theorem refOut_eq_G (a0 a1 a2 a3 a4 : IVec S1x1024 32) (w : FVec Ideal S139x128 .f32) :
    refOut (F := Ideal) a0 a1 a2 a3 a4 w = G a0 a1 a2 a3 a4 w := by
  funext y
  obtain ⟨i, j, c, rfl⟩ : ∃ (i j : Fin 1024) (c : Fin 128), y = ix4 0 i j c :=
    ⟨y 1, y 2, y 3, funext fun k => by
      match k with
      | ⟨0, _⟩ => exact Fin.ext (Nat.lt_one_iff.1 (y 0).isLt)
      | ⟨1, _⟩ => rfl
      | ⟨2, _⟩ => rfl
      | ⟨3, _⟩ => rfl⟩
  unfold refOut
  rw [addf_apply, addf_apply, addf_apply, posTerm_apply, tokTerm_apply, entTerm_apply, chainTerm_apply]
  rfl

end Cert.ReferenceIdeal.Hand

end
-- ==== Proof.KernelLayout.lean ====
/-
  The body's layout operations read at an index: the shape casts between a block of pairs [1, 128, 128, n] and
  its matrix of rows [16384, n] (pair (p, q) is row 128 p + q), the broadcasts of a per-pair word and of a
  per-lane word, a concatenation of three matrices side by side and of two matrices one above the other, the lane
  counter, and the entity row of the weight block.
-/
import proofs.«408695_j88175678587717_3_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

variable {α : Type}

/-- The matrix row of the pair `(p, q)` of a 128 x 128 block of pairs. -/
abbrev pairRow (p q : Fin 128) : Fin 16384 := ⟨p.val * 128 + q.val, by omega⟩

/-! ## Shape casts -/

theorem cast66_apply (x : S1x128x128x66.Idx → α) (p q : Fin 128) (k : Fin 66) :
    shapeCast S16384x66 x shapeCasts_S1x128x128x66_S16384x66 (ix2 (pairRow p q) k) = x (ix4 0 p q k) := by
  refine shapeCast_apply x _ _ _ ?_
  rw [Shape.rowMajor_val_four, Shape.rowMajor_val_two]
  show ((0 * 128 + p.val) * 128 + q.val) * 66 + k.val = (p.val * 128 + q.val) * 66 + k.val
  rw [Nat.zero_mul, Nat.zero_add]

theorem cast6_apply (x : S1x128x128x6.Idx → α) (p q : Fin 128) (k : Fin 6) :
    shapeCast S16384x6 x shapeCasts_S1x128x128x6_S16384x6 (ix2 (pairRow p q) k) = x (ix4 0 p q k) := by
  refine shapeCast_apply x _ _ _ ?_
  rw [Shape.rowMajor_val_four, Shape.rowMajor_val_two]
  show ((0 * 128 + p.val) * 128 + q.val) * 6 + k.val = (p.val * 128 + q.val) * 6 + k.val
  rw [Nat.zero_mul, Nat.zero_add]

theorem cast128_apply (x : S16384x128.Idx → α) (p q c : Fin 128) :
    shapeCast S1x128x128x128 x shapeCasts_S16384x128_S1x128x128x128 (ix4 0 p q c) = x (ix2 (pairRow p q) c) := by
  refine shapeCast_apply x _ _ _ ?_
  rw [Shape.rowMajor_val_four, Shape.rowMajor_val_two]
  show (p.val * 128 + q.val) * 128 + c.val = ((0 * 128 + p.val) * 128 + q.val) * 128 + c.val
  rw [Nat.zero_mul, Nat.zero_add]

theorem castPair_apply (x : S1x128x128.Idx → α) (p q : Fin 128) :
    shapeCast S1x128x128x1 x shapeCasts_S1x128x128_S1x128x128x1 (ix4 0 p q 0) = x (ix3 0 p q) := by
  refine shapeCast_apply x _ _ _ ?_
  rw [Shape.rowMajor_val_four, Shape.rowMajor_val_three]
  show (0 * 128 + p.val) * 128 + q.val = ((0 * 128 + p.val) * 128 + q.val) * 1 + 0
  omega

/-! ## Broadcasts -/

theorem bcastRow_apply (x : S1x128x1.Idx → α) (p q : Fin 128) :
    broadcastTo S1x128x128 x broadcasts_S1x128x1_S1x128x128 (ix3 0 p q) = x (ix3 0 p 0) := by
  refine broadcastTo_apply x _ _ _ fun ax => ?_
  match ax with
  | ⟨0, _⟩ => rfl
  | ⟨1, _⟩ => rfl
  | ⟨2, _⟩ => rfl

theorem bcastCol_apply (x : S1x1x128.Idx → α) (p q : Fin 128) :
    broadcastTo S1x128x128 x broadcasts_S1x1x128_S1x128x128 (ix3 0 p q) = x (ix3 0 0 q) := by
  refine broadcastTo_apply x _ _ _ fun ax => ?_
  match ax with
  | ⟨0, _⟩ => rfl
  | ⟨1, _⟩ => rfl
  | ⟨2, _⟩ => rfl

theorem bcastPair66_apply (x : S1x128x128x1.Idx → α) (p q : Fin 128) (k : Fin 66) :
    broadcastTo S1x128x128x66 x broadcasts_S1x128x128x1_S1x128x128x66 (ix4 0 p q k) = x (ix4 0 p q 0) := by
  refine broadcastTo_apply x _ _ _ fun ax => ?_
  match ax with
  | ⟨0, _⟩ => rfl
  | ⟨1, _⟩ => rfl
  | ⟨2, _⟩ => rfl
  | ⟨3, _⟩ => rfl

theorem bcastLane66_apply (x : S1x1x1x66.Idx → α) (p q : Fin 128) (k : Fin 66) :
    broadcastTo S1x128x128x66 x broadcasts_S1x1x1x66_S1x128x128x66 (ix4 0 p q k) = x (ix4 0 0 0 k) := by
  refine broadcastTo_apply x _ _ _ fun ax => ?_
  match ax with
  | ⟨0, _⟩ => rfl
  | ⟨1, _⟩ => rfl
  | ⟨2, _⟩ => rfl
  | ⟨3, _⟩ => rfl

theorem bcastPair6_apply (x : S1x128x128x1.Idx → α) (p q : Fin 128) (k : Fin 6) :
    broadcastTo S1x128x128x6 x broadcasts_S1x128x128x1_S1x128x128x6 (ix4 0 p q k) = x (ix4 0 p q 0) := by
  refine broadcastTo_apply x _ _ _ fun ax => ?_
  match ax with
  | ⟨0, _⟩ => rfl
  | ⟨1, _⟩ => rfl
  | ⟨2, _⟩ => rfl
  | ⟨3, _⟩ => rfl

theorem bcastLane6_apply (x : S1x1x1x6.Idx → α) (p q : Fin 128) (k : Fin 6) :
    broadcastTo S1x128x128x6 x broadcasts_S1x1x1x6_S1x128x128x6 (ix4 0 p q k) = x (ix4 0 0 0 k) := by
  refine broadcastTo_apply x _ _ _ fun ax => ?_
  match ax with
  | ⟨0, _⟩ => rfl
  | ⟨1, _⟩ => rfl
  | ⟨2, _⟩ => rfl
  | ⟨3, _⟩ => rfl

theorem bcastPair128_apply (x : S1x128x128x1.Idx → α) (p q c : Fin 128) :
    broadcastTo S1x128x128x128 x broadcasts_S1x128x128x1_S1x128x128x128 (ix4 0 p q c) = x (ix4 0 p q 0) := by
  refine broadcastTo_apply x _ _ _ fun ax => ?_
  match ax with
  | ⟨0, _⟩ => rfl
  | ⟨1, _⟩ => rfl
  | ⟨2, _⟩ => rfl
  | ⟨3, _⟩ => rfl

theorem bcastLane128_apply (x : S1x1x1x128.Idx → α) (p q c : Fin 128) :
    broadcastTo S1x128x128x128 x broadcasts_S1x1x1x128_S1x128x128x128 (ix4 0 p q c) = x (ix4 0 0 0 c) := by
  refine broadcastTo_apply x _ _ _ fun ax => ?_
  match ax with
  | ⟨0, _⟩ => rfl
  | ⟨1, _⟩ => rfl
  | ⟨2, _⟩ => rfl
  | ⟨3, _⟩ => rfl

/-! ## The lane counters -/

theorem lane66_apply (k : Fin 66) : k0_pay15 (ix4 0 0 0 k) = BitVec.ofNat 32 k.val := by
  unfold k0_pay15
  refine (shapeCast_apply _ _ _ (ix1 k) ?_).trans ?_
  · rw [Shape.rowMajor_val_four, Shape.rowMajor_val_one]
    show k.val = ((0 * 1 + 0) * 1 + 0) * 66 + k.val
    omega
  refine (shapeCast_apply _ _ _ (ix2 (0 : Fin 1) k) ?_).trans ?_
  · rw [Shape.rowMajor_val_two, Shape.rowMajor_val_one]
    show 0 * 66 + k.val = k.val
    omega
  exact iota_single_apply .tc S1x66 32 1 _ (ix2 (0 : Fin 1) k)

theorem lane6_apply (k : Fin 6) : k0_pay16 (ix4 0 0 0 k) = BitVec.ofNat 32 k.val := by
  unfold k0_pay16
  refine (shapeCast_apply _ _ _ (ix1 k) ?_).trans ?_
  · rw [Shape.rowMajor_val_four, Shape.rowMajor_val_one]
    show k.val = ((0 * 1 + 0) * 1 + 0) * 6 + k.val
    omega
  refine (shapeCast_apply _ _ _ (ix2 (0 : Fin 1) k) ?_).trans ?_
  · rw [Shape.rowMajor_val_two, Shape.rowMajor_val_one]
    show 0 * 6 + k.val = k.val
    omega
  exact iota_single_apply .tc S1x6 32 1 _ (ix2 (0 : Fin 1) k)

/-! ## Concatenations -/

/-- Three matrices side by side, 66 + 66 + 6 columns. -/
theorem concatCols_apply (A B : S16384x66.Idx → α) (C : S16384x6.Idx → α) (r : Fin 16384) (k : Fin 138) :
    concatenate S16384x138 1 [⟨S16384x66, A⟩, ⟨S16384x66, B⟩, ⟨S16384x6, C⟩] concatenates_S16384x66_S16384x66_S16384x6_S16384x138_d1 (ix2 r k)
      = if h1 : k.val < 66 then A (ix2 r ⟨k.val, h1⟩)
        else if h2 : k.val < 132 then B (ix2 r ⟨k.val - 66, by omega⟩)
        else C (ix2 r ⟨k.val - 132, by omega⟩) := by
  by_cases h1 : k.val < 66
  · rw [dif_pos h1]
    refine concatenate_apply_piece (t := S16384x138) 1 _ _ (ix2 r k) 0 (by show (0 : Nat) < 3; omega) S16384x66 A rfl rfl 0 rfl
      (ix2 r ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 132
    · rw [dif_pos h2]
      refine concatenate_apply_piece (t := S16384x138) 1 _ _ (ix2 r k) 1 (by show (1 : Nat) < 3; omega) S16384x66 B rfl rfl 66 rfl
        (ix2 r ⟨k.val - 66, by omega⟩) (fun b hb => ?_) ?_
      · match b with
        | ⟨0, _⟩ => rfl
        | ⟨1, _⟩ => exact absurd rfl hb
      · show 66 + (k.val - 66) = k.val
        omega
    · rw [dif_neg h2]
      refine concatenate_apply_piece (t := S16384x138) 1 _ _ (ix2 r k) 2 (by show (2 : Nat) < 3; omega) S16384x6 C rfl rfl 132 rfl
        (ix2 r ⟨k.val - 132, by omega⟩) (fun b hb => ?_) ?_
      · match b with
        | ⟨0, _⟩ => rfl
        | ⟨1, _⟩ => exact absurd rfl hb
      · show 132 + (k.val - 132) = k.val
        omega

/-- Two matrices one above the other, 132 + 6 rows. -/
theorem concatRows_apply (X : S132x128.Idx → α) (Y : S6x128.Idx → α) (k : Fin 138) (c : Fin 128) :
    concatenate S138x128 0 [⟨S132x128, X⟩, ⟨S6x128, Y⟩] concatenates_S132x128_S6x128_S138x128_d0 (ix2 k c)
      = if h1 : k.val < 132 then X (ix2 ⟨k.val, h1⟩ c) else Y (ix2 ⟨k.val - 132, by omega⟩ c) := by
  by_cases h1 : k.val < 132
  · rw [dif_pos h1]
    refine concatenate_apply_piece (t := S138x128) 0 _ _ (ix2 k c) 0 (by show (0 : Nat) < 2; omega) S132x128 X rfl rfl 0 rfl
      (ix2 ⟨k.val, h1⟩ c) (fun b hb => ?_) ?_
    · match b with
      | ⟨0, _⟩ => exact absurd rfl hb
      | ⟨1, _⟩ => rfl
    · show 0 + k.val = k.val
      omega
  · rw [dif_neg h1]
    refine concatenate_apply_piece (t := S138x128) 0 _ _ (ix2 k c) 1 (by show (1 : Nat) < 2; omega) S6x128 Y rfl rfl 132 rfl
      (ix2 ⟨k.val - 132, by omega⟩ c) (fun b hb => ?_) ?_
    · match b with
      | ⟨0, _⟩ => exact absurd rfl hb
      | ⟨1, _⟩ => rfl
    · show 132 + (k.val - 132) = k.val
      omega

/-! ## Slices of the weight block -/

theorem slice132_apply (w : S139x128.Idx → α) (k : Fin 132) (c : Fin 128) :
    extractStridedSlice S132x128 ![0, 0] w slices_S139x128_o0_0_S132x128 (ix2 k c) = w (ix2 ⟨k.val, by omega⟩ c) := by
  exact slice2_axis0_apply 0 w _ k c ⟨k.val, by omega⟩ (Nat.zero_add _).symm

theorem slice6_apply (w : S139x128.Idx → α) (k : Fin 6) (c : Fin 128) :
    extractStridedSlice S6x128 ![133, 0] w slices_S139x128_o133_0_S6x128 (ix2 k c) = w (ix2 ⟨133 + k.val, by omega⟩ c) := by
  exact slice2_axis0_apply 133 w _ k c ⟨133 + k.val, by omega⟩ rfl

/-- The entity row, as the body lays it out for the broadcast over pairs. -/
theorem entRow_apply (w : S139x128.Idx → α) (c : Fin 128) :
    shapeCast S1x1x1x128 (shapeCast S128 (extractStridedSlice S1x128 ![132, 0] w slices_S139x128_o132_0_S1x128) shapeCasts_S1x128_S128)
      shapeCasts_S128_S1x1x1x128 (ix4 0 0 0 c) = w (ix2 ⟨132, by decide⟩ c) := by
  refine (shapeCast_apply _ _ _ (ix1 c) ?_).trans ?_
  · rw [Shape.rowMajor_val_four, Shape.rowMajor_val_one]
    show c.val = ((0 * 1 + 0) * 1 + 0) * 128 + c.val
    omega
  refine (shapeCast_apply _ _ _ (ix2 (0 : Fin 1) c) ?_).trans ?_
  · rw [Shape.rowMajor_val_two, Shape.rowMajor_val_one]
    show 0 * 128 + c.val = c.val
    omega
  exact slice2_axis0_apply 132 w _ (0 : Fin 1) c ⟨132, by decide⟩ rfl

end Cert.KernelIdeal.Hand

end
-- ==== Proof.KernelDot.lean ====
/-
  The body's matrix product read at an entry: row r of the left operand against column c of the right one,
  a sum over the 138 contracted positions (exact at the ideal instance, the accumulator being zero).
-/
import proofs.«408695_j88175678587717_3_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The left operand's row coordinate is the result's. -/
theorem dotLhs_0 (j : S16384x128.Idx) (k : dot_S16384x138_S138x128_S16384x128_1_0_0_1_n_n.contr.Idx) :
    (dot_S16384x138_S138x128_S16384x128_1_0_0_1_n_n.lhsIdx j k 0).val = (j 0).val := by
  unfold DotDims.lhsIdx
  rw [dif_neg (show ¬ (0 : Fin S16384x138.rank) ∈ dot_S16384x138_S138x128_S16384x128_1_0_0_1_n_n.lhsBatch by decide),
    dif_pos (show (0 : Fin S16384x138.rank) ∈ dot_S16384x138_S138x128_S16384x128_1_0_0_1_n_n.lhsNonContracting by decide)]
  rfl

/-- The left operand's column coordinate is the contracted position. -/
theorem dotLhs_1 (j : S16384x128.Idx) (k : dot_S16384x138_S138x128_S16384x128_1_0_0_1_n_n.contr.Idx) :
    (dot_S16384x138_S138x128_S16384x128_1_0_0_1_n_n.lhsIdx j k 1).val = (k ⟨0, by decide⟩).val :=
  dot_S16384x138_S138x128_S16384x128_1_0_0_1_n_n.lhsIdx_val_of_single rfl j k

/-- The right operand's row coordinate is the contracted position. -/
theorem dotRhs_0 (j : S16384x128.Idx) (k : dot_S16384x138_S138x128_S16384x128_1_0_0_1_n_n.contr.Idx) :
    (dot_S16384x138_S138x128_S16384x128_1_0_0_1_n_n.rhsIdx j k 0).val = (k ⟨0, by decide⟩).val :=
  dot_S16384x138_S138x128_S16384x128_1_0_0_1_n_n.rhsIdx_val_of_single rfl j k

/-- The right operand's column coordinate is the result's. -/
theorem dotRhs_1 (j : S16384x128.Idx) (k : dot_S16384x138_S138x128_S16384x128_1_0_0_1_n_n.contr.Idx) :
    (dot_S16384x138_S138x128_S16384x128_1_0_0_1_n_n.rhsIdx j k 1).val = (j 1).val := by
  unfold DotDims.rhsIdx
  rw [dif_neg (show ¬ (1 : Fin S138x128.rank) ∈ dot_S16384x138_S138x128_S16384x128_1_0_0_1_n_n.rhsBatch by decide),
    dif_pos (show (1 : Fin S138x128.rank) ∈ dot_S16384x138_S138x128_S16384x128_1_0_0_1_n_n.rhsNonContracting by decide)]
  rfl

/-- THE PRODUCT AT AN ENTRY. -/
theorem dot_apply (lhs : FVec Ideal S16384x138 .bf16) (rhs : FVec Ideal S138x128 .bf16) (r : Fin 16384) (c : Fin 128) :
    matmul dot_S16384x138_S138x128_S16384x128_1_0_0_1_n_n none lhs rhs (constant S16384x128 .f32 0x00000000#32) (ix2 r c)
      = ∑ k : Fin 138, lhs (ix2 r k) * rhs (ix2 k c) := by
  show FloatOps.matmul dot_S16384x138_S138x128_S16384x128_1_0_0_1_n_n none lhs rhs (constant S16384x128 .f32 0x00000000#32) (ix2 r c) = _
  rw [Ideal.matmul_constant_zero_apply,
    ← Equiv.sum_comp (contrEquiv1 dot_S16384x138_S138x128_S16384x128_1_0_0_1_n_n 138 rfl rfl).symm]
  refine Finset.sum_congr rfl fun k _ => ?_
  have hk := contrEquiv1_symm_val dot_S16384x138_S138x128_S16384x128_1_0_0_1_n_n 138 rfl rfl k
  congr 2
  · funext a
    refine Fin.ext ?_
    match a with
    | ⟨0, _⟩ => exact dotLhs_0 _ _
    | ⟨1, _⟩ => exact (dotLhs_1 _ _).trans hk
  · funext a
    refine Fin.ext ?_
    match a with
    | ⟨0, _⟩ => exact (dotRhs_0 _ _).trans hk
    | ⟨1, _⟩ => exact dotRhs_1 _ _

end Cert.KernelIdeal.Hand

end
-- ==== Proof.KernelPay.lean ====
/-
  What the kernel body leaves in the output block, read at one pair and one channel, is the specification's cell
  of the ten index words the pair's row and column blocks hold and the channel's column of the weight block.

  The body forms, per pair, a row of 138 indicator values (66 for the position bucket, 66 for the token bucket,
  6 for the chain bucket), multiplies the matrix of these rows by the weight block without its row 132, and adds
  the entity bit times row 132.  At the ideal instance the product is an exact sum; a block of indicators against
  a block of weights picks the one weight its bucket names, and the buckets are small by the specification's range
  lemmas.  Sums of extended reals are commutative and associative and 0 * x = 0, so no finiteness is used.
-/
import proofs.«408695_j88175678587717_3_alg».proof.Proof.Gen.KernelIdeal.Frame
import proofs.«408695_j88175678587717_3_alg».proof.Proof.PairSpec
import proofs.«408695_j88175678587717_3_alg».proof.Proof.KernelLayout
import proofs.«408695_j88175678587717_3_alg».proof.Proof.KernelDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.PairBias

/-! ## The integer side of the body at one pair -/

/-- The equality bit of a row word and a column word, each spread over the block of pairs. -/
theorem eqPair_apply (a : IVec S1x128x1 32) (b : IVec S1x1x128 32) (p q : Fin 128) :
    cmpi .eq (broadcastTo S1x128x128 a broadcasts_S1x128x1_S1x128x128)
        (broadcastTo S1x128x128 b broadcasts_S1x1x128_S1x128x128) (ix3 0 p q)
      = eqBit (a (ix3 0 p 0)) (b (ix3 0 0 q)) := by
  show IntOp.cmpi .eq (broadcastTo S1x128x128 a broadcasts_S1x128x1_S1x128x128 (ix3 0 p q))
      (broadcastTo S1x128x128 b broadcasts_S1x1x128_S1x128x128 (ix3 0 p q)) = _
  rw [bcastRow_apply, bcastCol_apply]
  rfl

theorem pay8_apply (a : Vec Ideal S1x128x1 .i32) (b : Vec Ideal S1x1x128 .i32) (p q : Fin 128) :
    k0_pay8 (F := Ideal) a b (ix3 0 p q) = eqBit (a (ix3 0 p 0)) (b (ix3 0 0 q)) := by
  unfold k0_pay8
  rw [shapeCast_self, shapeCast_self]
  exact eqPair_apply a b p q

theorem pay9_apply (a : Vec Ideal S1x128x1 .i32) (b : Vec Ideal S1x1x128 .i32) (p q : Fin 128) :
    k0_pay9 (F := Ideal) a b (ix3 0 p q) = eqBit (a (ix3 0 p 0)) (b (ix3 0 0 q)) := by
  unfold k0_pay9 k0_pay2 k0_pay3
  rw [shapeCast_self, shapeCast_self]
  exact eqPair_apply a b p q

theorem pay12_apply (a : Vec Ideal S1x128x1 .i32) (b : Vec Ideal S1x1x128 .i32) (p q : Fin 128) :
    k0_pay12 (k0_pay10 (F := Ideal) a) (k0_pay11 (F := Ideal) b) (ix3 0 p q) = eqBit (a (ix3 0 p 0)) (b (ix3 0 0 q)) := by
  unfold k0_pay12 k0_pay10 k0_pay11
  rw [shapeCast_self, shapeCast_self]
  exact eqPair_apply a b p q

/-- The clipped offset of a row word and a column word under a condition bit, at one pair. -/
theorem bucketPair_apply (r hi sent : BitVec 32) (cnd : IVec S1x128x128 1) (a : IVec S1x128x1 32) (b : IVec S1x1x128 32)
    (p q : Fin 128) :
    select cnd
        (minsi (broadcast S1x128x128 hi)
          (maxsi (broadcast S1x128x128 0#32)
            (addi (subi (broadcastTo S1x128x128 a broadcasts_S1x128x1_S1x128x128)
                (broadcastTo S1x128x128 b broadcasts_S1x1x128_S1x128x128)) (broadcast S1x128x128 r))))
        (broadcast S1x128x128 sent) (ix3 0 p q)
      = bucket r hi sent (cnd (ix3 0 p q)) (a (ix3 0 p 0)) (b (ix3 0 0 q)) := by
  show Scalar.select (cnd (ix3 0 p q))
      (IntOp.minsi hi (IntOp.maxsi 0#32 (IntOp.addi (IntOp.subi
        (broadcastTo S1x128x128 a broadcasts_S1x128x1_S1x128x128 (ix3 0 p q))
        (broadcastTo S1x128x128 b broadcasts_S1x1x128_S1x128x128 (ix3 0 p q))) r))) sent = _
  rw [bcastRow_apply, bcastCol_apply]
  rfl

theorem pay13_apply (v5 : IVec S1x128x1 32) (v7 : IVec S1x1x128 32) (v22 v25 : IVec S1x128x128 1) (p q : Fin 128) :
    k0_pay13 v5 v7 v22 v25 (ix3 0 p q)
      = bucket 32#32 64#32 65#32 (IntOp.andi (v25 (ix3 0 p q)) (v22 (ix3 0 p q))) (v5 (ix3 0 p 0)) (v7 (ix3 0 0 q)) := by
  unfold k0_pay13
  exact bucketPair_apply 32#32 64#32 65#32 (andi v25 v22) v5 v7 p q

theorem pay14_apply (v17 : IVec S1x128x1 32) (v19 : IVec S1x1x128 32) (v22 : IVec S1x128x128 1) (p q : Fin 128) :
    k0_pay14 v17 v19 v22 (ix3 0 p q)
      = bucket 2#32 4#32 5#32 (~~~ (v22 (ix3 0 p q))) (v17 (ix3 0 p 0)) (v19 (ix3 0 0 q)) := by
  unfold k0_pay14
  refine (bucketPair_apply 2#32 4#32 5#32 (xori v22 (constantI S1x128x128 1 1#1)) v17 v19 p q).trans ?_
  exact congrArg (fun t => bucket 2#32 4#32 5#32 t (v17 (ix3 0 p 0)) (v19 (ix3 0 0 q))) (xor_one_eq_not (v22 (ix3 0 p q)))

theorem pay17_apply (v1 : IVec S1x128x1 32) (v3 : IVec S1x1x128 32) (v25 : IVec S1x128x128 1) (p q : Fin 128) (k : Fin 66) :
    k0_pay17 v1 v3 v25 (ix4 0 p q k)
      = (eqBit (bucket 32#32 64#32 65#32 (v25 (ix3 0 p q)) (v1 (ix3 0 p 0)) (v3 (ix3 0 0 q))) (BitVec.ofNat 32 k.val)).setWidth 32 := by
  unfold k0_pay17
  rw [extui_apply]
  show (IntOp.cmpi .eq (broadcastTo S1x128x128x66 _ broadcasts_S1x128x128x1_S1x128x128x66 (ix4 0 p q k))
      (broadcastTo S1x128x128x66 k0_pay15 broadcasts_S1x1x1x66_S1x128x128x66 (ix4 0 p q k))).setWidth 32 = _
  rw [bcastPair66_apply, bcastLane66_apply, castPair_apply, lane66_apply, bucketPair_apply]
  rfl

/-! ## Words as extended reals -/

/-- A word read as a signed integer, as an extended real: what the integer-to-float conversion gives at the
    ideal instance. -/
abbrev toE {w : Nat} (b : BitVec w) : EReal := ((b.toInt : ℝ) : EReal)

/-- One bit, widened without sign, reads as 0 or 1: its unsigned value. -/
theorem bit_toInt (b : BitVec 1) : (b.setWidth 32).toInt = (b.toNat : Int) := by
  revert b; decide

/-- The widened equality bit of a word against the counter k is the indicator of "the word is k". -/
theorem hot_eq {n : Nat} (hn : n ≤ 2 ^ 32) (b : BitVec 32) (hb : b.toNat < n) (a : Fin n) :
    toE ((eqBit b (BitVec.ofNat 32 a.val)).setWidth 32) = if a = ⟨b.toNat, hb⟩ then (1 : EReal) else 0 := by
  have ha : a.val < 2 ^ 32 := lt_of_lt_of_le a.isLt hn
  unfold toE eqBit IntOp.cmpi
  by_cases h : b = BitVec.ofNat 32 a.val
  · have e : a = ⟨b.toNat, hb⟩ := by
      apply Fin.ext
      show a.val = b.toNat
      rw [h, BitVec.toNat_ofNat, Nat.mod_eq_of_lt ha]
    rw [if_pos e]
    have hb' : (b == BitVec.ofNat 32 a.val) = true := by rw [beq_iff_eq]; exact h
    simp only [hb']
    have : ((BitVec.ofBool true).setWidth 32).toInt = 1 := by decide
    rw [this]; simp
  · have e : ¬ a = ⟨b.toNat, hb⟩ := by
      intro e
      apply h
      have : a.val = b.toNat := congrArg Fin.val e
      rw [this, BitVec.ofNat_toNat, BitVec.setWidth_eq]
    rw [if_neg e]
    have hb' : (b == BitVec.ofNat 32 a.val) = false := by
      rw [beq_eq_false_iff_ne]; exact h
    simp only [hb']
    have : ((BitVec.ofBool false).setWidth 32).toInt = 0 := by decide
    rw [this]; simp

/-- A row of indicator words against a column of weights picks the weight the word names. -/
theorem block_sum {n : Nat} (hn : n ≤ 2 ^ 32) (b : BitVec 32) (hb : b.toNat < n) (w : Fin n → EReal) :
    (∑ a : Fin n, toE ((eqBit b (BitVec.ofNat 32 a.val)).setWidth 32) * w a) = w ⟨b.toNat, hb⟩ := by
  rw [← sum_onehot ⟨b.toNat, hb⟩ w]
  exact Finset.sum_congr rfl fun a _ => by rw [hot_eq hn b hb a]

/-- A sum over the 138 contracted positions, block by block: 66 + 66 + 6. -/
theorem sum138 (f : Fin 138 → EReal) :
    (∑ k : Fin 138, f k)
      = ((∑ a : Fin 66, f ⟨a.val, by omega⟩) + ∑ a : Fin 66, f ⟨66 + a.val, by omega⟩) + ∑ a : Fin 6, f ⟨132 + a.val, by omega⟩ := by
  show (∑ k : Fin (66 + 66 + 6), f k) = _
  rw [Fin.sum_univ_add, Fin.sum_univ_add]
  rfl

/-! ## The two operands of the body's matrix product -/

/-- The left operand: per pair a row of 138 indicator values, three blocks side by side. -/
def lhsMat (v51 v63 : IVec S1x128x128 32) (v74 : IVec S1x128x128x66 32) : FVec Ideal S16384x138 .bf16 :=
  concatenate S16384x138 1
    [⟨S16384x66, shapeCast S16384x66 (truncf .bf16 (sitofp (F := Ideal) .f32 v74) bitsLt_bf16_f32) shapeCasts_S1x128x128x66_S16384x66⟩,
     ⟨S16384x66, shapeCast S16384x66 (truncf .bf16 (sitofp (F := Ideal) .f32 (extui 32 (cmpi .eq
        (broadcastTo S1x128x128x66 (shapeCast S1x128x128x1 v51 shapeCasts_S1x128x128_S1x128x128x1) broadcasts_S1x128x128x1_S1x128x128x66)
        (broadcastTo S1x128x128x66 k0_pay15 broadcasts_S1x1x1x66_S1x128x128x66)) natLt_1_32)) bitsLt_bf16_f32) shapeCasts_S1x128x128x66_S16384x66⟩,
     ⟨S16384x6, shapeCast S16384x6 (truncf .bf16 (sitofp (F := Ideal) .f32 (extui 32 (cmpi .eq
        (broadcastTo S1x128x128x6 (shapeCast S1x128x128x1 v63 shapeCasts_S1x128x128_S1x128x128x1) broadcasts_S1x128x128x1_S1x128x128x6)
        (broadcastTo S1x128x128x6 k0_pay16 broadcasts_S1x1x1x6_S1x128x128x6)) natLt_1_32)) bitsLt_bf16_f32) shapeCasts_S1x128x128x6_S16384x6⟩]
    concatenates_S16384x66_S16384x66_S16384x6_S16384x138_d1

/-- The right operand: the weight block without its row 132. -/
def rhsMat (v95 : Vec Ideal S139x128 .f32) : FVec Ideal S138x128 .bf16 :=
  truncf .bf16 (concatenate S138x128 0
    [⟨S132x128, extractStridedSlice S132x128 ![0, 0] v95 slices_S139x128_o0_0_S132x128⟩,
     ⟨S6x128, extractStridedSlice S6x128 ![133, 0] v95 slices_S139x128_o133_0_S6x128⟩]
    concatenates_S132x128_S6x128_S138x128_d0) bitsLt_bf16_f32

/-- The body's result at a pair and a channel: the product's entry plus the entity bit times the entity row. -/
theorem pay1_apply (v28 : IVec S1x128x128 1) (v51 v63 : IVec S1x128x128 32) (v74 : IVec S1x128x128x66 32)
    (v95 : Vec Ideal S139x128 .f32) (p q c : Fin 128) :
    k0_pay1 (F := Ideal) v28 v51 v63 k0_pay15 k0_pay16 v74 v95 (ix4 0 p q c)
      = (∑ k : Fin 138, lhsMat v51 v63 v74 (ix2 (pairRow p q) k) * rhsMat v95 (ix2 k c))
        + toE ((v28 (ix3 0 p q)).setWidth 32) * v95 (ix2 ⟨132, by decide⟩ c) := by
  unfold k0_pay1
  rw [addf_apply, mulf_apply, cast128_apply]
  refine congrArg₂ (· + ·) (dot_apply (lhsMat v51 v63 v74) (rhsMat v95) (pairRow p q) c) ?_
  rw [bcastPair128_apply, bcastLane128_apply, entRow_apply, sitofp_apply, extui_apply, castPair_apply]
  rfl

/-! ## The operands read block by block -/

theorem lhsMat_left (v51 v63 : IVec S1x128x128 32) (v74 : IVec S1x128x128x66 32) (p q : Fin 128) (a : Fin 66) :
    lhsMat v51 v63 v74 (ix2 (pairRow p q) ⟨a.val, by omega⟩) = toE (v74 (ix4 0 p q a)) := by
  unfold lhsMat
  have h : (⟨a.val, by omega⟩ : Fin 138).val < 66 := a.isLt
  rw [concatCols_apply, dif_pos h, cast66_apply, truncf_apply, sitofp_apply]
  rfl

theorem lhsMat_mid (v51 v63 : IVec S1x128x128 32) (v74 : IVec S1x128x128x66 32) (p q : Fin 128) (a : Fin 66) :
    lhsMat v51 v63 v74 (ix2 (pairRow p q) ⟨66 + a.val, by omega⟩)
      = toE ((eqBit (v51 (ix3 0 p q)) (BitVec.ofNat 32 a.val)).setWidth 32) := by
  unfold lhsMat
  have h1 : ¬ (⟨66 + a.val, by omega⟩ : Fin 138).val < 66 := by show ¬ (66 + a.val < 66); omega
  have h2 : (⟨66 + a.val, by omega⟩ : Fin 138).val < 132 := by have := a.isLt; show 66 + a.val < 132; omega
  have e : (⟨(⟨66 + a.val, by omega⟩ : Fin 138).val - 66, by have := a.isLt; show 66 + a.val - 66 < 66; omega⟩ : Fin 66) = a :=
    Fin.ext (by show 66 + a.val - 66 = a.val; omega)
  rw [concatCols_apply, dif_neg h1, dif_pos h2, e, cast66_apply, truncf_apply, sitofp_apply, extui_apply]
  show toE ((IntOp.cmpi .eq (broadcastTo S1x128x128x66 _ broadcasts_S1x128x128x1_S1x128x128x66 (ix4 0 p q a))
      (broadcastTo S1x128x128x66 k0_pay15 broadcasts_S1x1x1x66_S1x128x128x66 (ix4 0 p q a))).setWidth 32) = _
  rw [bcastPair66_apply, bcastLane66_apply, castPair_apply, lane66_apply]
  rfl

theorem lhsMat_right (v51 v63 : IVec S1x128x128 32) (v74 : IVec S1x128x128x66 32) (p q : Fin 128) (a : Fin 6) :
    lhsMat v51 v63 v74 (ix2 (pairRow p q) ⟨132 + a.val, by omega⟩)
      = toE ((eqBit (v63 (ix3 0 p q)) (BitVec.ofNat 32 a.val)).setWidth 32) := by
  unfold lhsMat
  have h1 : ¬ (⟨132 + a.val, by omega⟩ : Fin 138).val < 66 := by show ¬ (132 + a.val < 66); omega
  have h2 : ¬ (⟨132 + a.val, by omega⟩ : Fin 138).val < 132 := by show ¬ (132 + a.val < 132); omega
  have e : (⟨(⟨132 + a.val, by omega⟩ : Fin 138).val - 132, by have := a.isLt; show 132 + a.val - 132 < 6; omega⟩ : Fin 6) = a :=
    Fin.ext (by show 132 + a.val - 132 = a.val; omega)
  rw [concatCols_apply, dif_neg h1, dif_neg h2, e, cast6_apply, truncf_apply, sitofp_apply, extui_apply]
  show toE ((IntOp.cmpi .eq (broadcastTo S1x128x128x6 _ broadcasts_S1x128x128x1_S1x128x128x6 (ix4 0 p q a))
      (broadcastTo S1x128x128x6 k0_pay16 broadcasts_S1x1x1x6_S1x128x128x6 (ix4 0 p q a))).setWidth 32) = _
  rw [bcastPair6_apply, bcastLane6_apply, castPair_apply, lane6_apply]
  rfl

theorem rhsMat_top (v95 : Vec Ideal S139x128 .f32) (c : Fin 128) (k : Fin 138) (h : k.val < 132) :
    rhsMat v95 (ix2 k c) = v95 (ix2 ⟨k.val, by omega⟩ c) := by
  unfold rhsMat
  rw [truncf_apply, concatRows_apply, dif_pos h, slice132_apply]

theorem rhsMat_bot (v95 : Vec Ideal S139x128 .f32) (c : Fin 128) (k : Fin 138) (h : 132 ≤ k.val) :
    rhsMat v95 (ix2 k c) = v95 (ix2 ⟨k.val + 1, by omega⟩ c) := by
  unfold rhsMat
  rw [truncf_apply, concatRows_apply, dif_neg (Nat.not_lt.mpr h), slice6_apply]
  exact congrArg (fun t => v95 (ix2 t c)) (Fin.ext (by show 133 + (k.val - 132) = k.val + 1; omega))

/-! ## The product's entry -/

/-- The product's entry at a pair and a channel, once each block of the pair's row is known to be the indicator
    of a small word: the three weights those words name. -/
theorem prod_apply (v51 v63 : IVec S1x128x128 32) (v74 : IVec S1x128x128x66 32) (v95 : Vec Ideal S139x128 .f32)
    (p q c : Fin 128) (P T C : BitVec 32) (hP : P.toNat < 66) (hT : T.toNat < 66) (hC : C.toNat < 6)
    (h74 : ∀ a : Fin 66, v74 (ix4 0 p q a) = (eqBit P (BitVec.ofNat 32 a.val)).setWidth 32)
    (h51 : v51 (ix3 0 p q) = T) (h63 : v63 (ix3 0 p q) = C) :
    (∑ k : Fin 138, lhsMat v51 v63 v74 (ix2 (pairRow p q) k) * rhsMat v95 (ix2 k c))
      = (v95 (ix2 ⟨P.toNat, by omega⟩ c) + v95 (ix2 ⟨66 + T.toNat, by omega⟩ c)) + v95 (ix2 ⟨133 + C.toNat, by omega⟩ c) := by
  rw [sum138]
  refine congrArg₂ (· + ·) (congrArg₂ (· + ·) ?_ ?_) ?_
  · have e : ∀ a : Fin 66, lhsMat v51 v63 v74 (ix2 (pairRow p q) ⟨a.val, by omega⟩) * rhsMat v95 (ix2 ⟨a.val, by omega⟩ c)
        = toE ((eqBit P (BitVec.ofNat 32 a.val)).setWidth 32) * (fun a : Fin 66 => v95 (ix2 ⟨a.val, by omega⟩ c)) a := fun a => by
      rw [lhsMat_left, h74 a, rhsMat_top v95 c ⟨a.val, by omega⟩ (by have := a.isLt; show a.val < 132; omega)]
    rw [Finset.sum_congr rfl fun a _ => e a]
    exact block_sum (by norm_num) P hP (fun a : Fin 66 => v95 (ix2 ⟨a.val, by omega⟩ c))
  · have e : ∀ a : Fin 66, lhsMat v51 v63 v74 (ix2 (pairRow p q) ⟨66 + a.val, by omega⟩) * rhsMat v95 (ix2 ⟨66 + a.val, by omega⟩ c)
        = toE ((eqBit T (BitVec.ofNat 32 a.val)).setWidth 32) * (fun a : Fin 66 => v95 (ix2 ⟨66 + a.val, by omega⟩ c)) a := fun a => by
      rw [lhsMat_mid, h51, rhsMat_top v95 c ⟨66 + a.val, by omega⟩ (by have := a.isLt; show 66 + a.val < 132; omega)]
    rw [Finset.sum_congr rfl fun a _ => e a]
    exact block_sum (by norm_num) T hT (fun a : Fin 66 => v95 (ix2 ⟨66 + a.val, by omega⟩ c))
  · have e : ∀ a : Fin 6, lhsMat v51 v63 v74 (ix2 (pairRow p q) ⟨132 + a.val, by omega⟩) * rhsMat v95 (ix2 ⟨132 + a.val, by omega⟩ c)
        = toE ((eqBit C (BitVec.ofNat 32 a.val)).setWidth 32) * (fun a : Fin 6 => v95 (ix2 ⟨133 + a.val, by omega⟩ c)) a := fun a => by
      rw [lhsMat_right, h63, rhsMat_bot v95 c ⟨132 + a.val, by omega⟩ (by show 132 ≤ 132 + a.val; omega)]
      exact congrArg (fun t => toE ((eqBit C (BitVec.ofNat 32 a.val)).setWidth 32) * v95 (ix2 t c))
        (Fin.ext (by show 132 + a.val + 1 = 133 + a.val; omega))
    rw [Finset.sum_congr rfl fun a _ => e a]
    exact block_sum (by norm_num) C hC (fun a : Fin 6 => v95 (ix2 ⟨133 + a.val, by omega⟩ c))

/-! ## The output block -/

/-- The output block is the body's last value of the loaded blocks. -/
theorem out_eq_pay (x0 : Vec Ideal S1x128x1 .i32) (x1 : Vec Ideal S1x1x128 .i32) (x2 : Vec Ideal S1x128x1 .i32)
    (x3 : Vec Ideal S1x1x128 .i32) (x4 : Vec Ideal S1x128x1 .i32) (x5 : Vec Ideal S1x1x128 .i32)
    (x6 : Vec Ideal S1x128x1 .i32) (x7 : Vec Ideal S1x1x128 .i32) (x8 : Vec Ideal S1x128x1 .i32)
    (x9 : Vec Ideal S1x1x128 .i32) (x10 : Vec Ideal S139x128 .f32) :
    out0_11 (F := Ideal) x0 x1 x2 x3 x4 x5 x6 x7 x8 x9 x10
      = k0_pay1 (F := Ideal) (k0_pay12 (k0_pay10 (F := Ideal) x6) (k0_pay11 (F := Ideal) x7))
          (k0_pay13 (k0_pay4 (F := Ideal) x2) (k0_pay5 (F := Ideal) x3) (k0_pay8 (F := Ideal) x4 x5) (k0_pay9 (F := Ideal) x0 x1))
          (k0_pay14 (k0_pay6 (F := Ideal) x8) (k0_pay7 (F := Ideal) x9) (k0_pay8 (F := Ideal) x4 x5)) k0_pay15 k0_pay16
          (k0_pay17 (k0_pay2 (F := Ideal) x0) (k0_pay3 (F := Ideal) x1) (k0_pay9 (F := Ideal) x0 x1)) x10 := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  have hz2 : (![0, 0] : Fin 2 → Nat) = fun _ => 0 := funext fun a => by fin_cases a <;> rfl
  unfold out0_11
  rw [View.canon_unit_zero hz4]
  simp only [View.ld_unit_zero (S := S1x128x1) hz3, View.ld_unit_zero (S := S1x1x128) hz3,
    View.ld_unit_zero (S := S139x128) hz2]

theorem out_apply (x0 : Vec Ideal S1x128x1 .i32) (x1 : Vec Ideal S1x1x128 .i32) (x2 : Vec Ideal S1x128x1 .i32)
    (x3 : Vec Ideal S1x1x128 .i32) (x4 : Vec Ideal S1x128x1 .i32) (x5 : Vec Ideal S1x1x128 .i32)
    (x6 : Vec Ideal S1x128x1 .i32) (x7 : Vec Ideal S1x1x128 .i32) (x8 : Vec Ideal S1x128x1 .i32)
    (x9 : Vec Ideal S1x1x128 .i32) (x10 : Vec Ideal S139x128 .f32) (p q c : Fin 128) :
    out0_11 (F := Ideal) x0 x1 x2 x3 x4 x5 x6 x7 x8 x9 x10 (ix4 0 p q c)
      = cell (x0 (ix3 0 p 0)) (x1 (ix3 0 0 q)) (x2 (ix3 0 p 0)) (x3 (ix3 0 0 q)) (x4 (ix3 0 p 0)) (x5 (ix3 0 0 q))
          (x6 (ix3 0 p 0)) (x7 (ix3 0 0 q)) (x8 (ix3 0 p 0)) (x9 (ix3 0 0 q)) (fun r => x10 (ix2 r c)) := by
  have e2 : k0_pay2 (F := Ideal) x0 = x0 := shapeCast_self _ _
  have e3 : k0_pay3 (F := Ideal) x1 = x1 := shapeCast_self _ _
  have e4 : k0_pay4 (F := Ideal) x2 = x2 := shapeCast_self _ _
  have e5 : k0_pay5 (F := Ideal) x3 = x3 := shapeCast_self _ _
  have e6 : k0_pay6 (F := Ideal) x8 = x8 := shapeCast_self _ _
  have e7 : k0_pay7 (F := Ideal) x9 = x9 := shapeCast_self _ _
  have hP := (posB_range (x0 (ix3 0 p 0)) (x1 (ix3 0 0 q))).2
  have hT := (tokB_range (x0 (ix3 0 p 0)) (x1 (ix3 0 0 q)) (x4 (ix3 0 p 0)) (x5 (ix3 0 0 q)) (x2 (ix3 0 p 0)) (x3 (ix3 0 0 q))).2
  have hC := (chainB_range (x4 (ix3 0 p 0)) (x5 (ix3 0 0 q)) (x8 (ix3 0 p 0)) (x9 (ix3 0 0 q))).2
  rw [out_eq_pay, pay1_apply,
    prod_apply _ _ _ x10 p q c (posB (x0 (ix3 0 p 0)) (x1 (ix3 0 0 q)))
      (tokB (x0 (ix3 0 p 0)) (x1 (ix3 0 0 q)) (x4 (ix3 0 p 0)) (x5 (ix3 0 0 q)) (x2 (ix3 0 p 0)) (x3 (ix3 0 0 q)))
      (chainB (x4 (ix3 0 p 0)) (x5 (ix3 0 0 q)) (x8 (ix3 0 p 0)) (x9 (ix3 0 0 q)))
      (by omega) (by omega) (by omega)
      (fun a => by rw [pay17_apply, pay9_apply, e2, e3]; rfl)
      (by rw [pay13_apply, pay9_apply, pay8_apply, e4, e5]; rfl)
      (by rw [pay14_apply, pay8_apply, e6, e7]; rfl),
    pay12_apply]
  unfold cell
  rw [add_right_comm]
  have eE : toE ((eqBit (x6 (ix3 0 p 0)) (x7 (ix3 0 0 q))).setWidth 32)
      = (((eqBit (x6 (ix3 0 p 0)) (x7 (ix3 0 0 q))).toNat : ℝ) : EReal) := by
    unfold toE; rw [bit_toInt, Int.cast_natCast]
  rw [eE]
  refine congrArg₂ (· + ·) (congrArg₂ (· + ·) (congrArg₂ (· + ·) ?_ ?_) rfl) ?_
  · exact congrArg (fun t => x10 (ix2 t c)) (Fin.ext (by dsimp only [rowAt]; omega))
  · exact congrArg (fun t => x10 (ix2 t c)) (Fin.ext (by dsimp only [rowAt]; omega))
  · exact congrArg (fun t => x10 (ix2 t c)) (Fin.ext (by dsimp only [rowAt]; omega))

end Cert.KernelIdeal.Hand

end
-- ==== Proof.KernelBlocks.lean ====
/-
  From blocks to the array: grid point (I, J) writes the block of pairs [128 I, 128 I + 128) x [128 J, 128 J + 128),
  all channels; the 64 blocks cover the result array, so after the run it is the specification of the argument arrays.
-/
import proofs.«408695_j88175678587717_3_alg».proof.Proof.Gen.KernelIdeal.Value
import proofs.«408695_j88175678587717_3_alg».proof.Proof.KernelPay
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.PairBias
open Idealize.ShloMosaic.Pipeline (Dat)

section Blocks

variable (m : (ℓ : Loc nD τ sig) → Buf (Elt Ideal) ℓ)

/-! ## Broadcasts read at an index -/

/-- A row array read at an index: the index array broadcast along a trailing unit axis keeps the token coordinate. -/
theorem rowArr_read (x : IVec S1x1024 32) (k : S1x1024x1.Idx) (i : Fin 1024) (h : (k 1).val = i.val) :
    broadcastInDim S1x1024x1 ![0, 1] Facts₀.bcast_S1x1024_S1x1024x1_0_1 x k = x (ix2 0 i) := by
  refine broadcastInDim_apply _ _ x k (ix2 0 i) fun a => ?_
  match a with
  | ⟨0, _⟩ => rfl
  | ⟨1, _⟩ => exact h.symm

/-- A column array read at an index: the index array broadcast along a middle unit axis keeps the token coordinate. -/
theorem colArr_read (x : IVec S1x1024 32) (k : S1x1x1024.Idx) (j : Fin 1024) (h : (k 2).val = j.val) :
    broadcastInDim S1x1x1024 ![0, 2] Facts₀.bcast_S1x1024_S1x1x1024_0_2 x k = x (ix2 0 j) := by
  refine broadcastInDim_apply _ _ x k (ix2 0 j) fun a => ?_
  match a with
  | ⟨0, _⟩ => rfl
  | ⟨1, _⟩ => exact h.symm

/-! ## The ten host arrays: each index array as a row array [1,1024,1] and as a column array [1,1,1024] -/

/-- The row array of the residue indices, read at an index. -/
theorem V_v0_apply (c : Dev nD) (k : S1x1024x1.Idx) (i : Fin 1024) (h : (k 1).val = i.val) :
    (V m c main_v0 : S1x1024x1.Idx → BitVec 32) k = (m ((c : Thread nD τ).loc main_arg0) : S1x1024.Idx → BitVec 32) (ix2 0 i) := by
  have e : (V m c main_v0 : S1x1024x1.Idx → BitVec 32)
      = broadcastInDim S1x1024x1 ![0, 1] Facts₀.bcast_S1x1024_S1x1024x1_0_1 (m ((c : Thread nD τ).loc main_arg0)) := by
    dsimp only [Gen.V, Gen.hostOps0]; after_results
  rw [e]
  exact rowArr_read _ k i h

theorem V_v1_apply (c : Dev nD) (k : S1x1x1024.Idx) (i : Fin 1024) (h : (k 2).val = i.val) :
    (V m c main_v1 : S1x1x1024.Idx → BitVec 32) k = (m ((c : Thread nD τ).loc main_arg0) : S1x1024.Idx → BitVec 32) (ix2 0 i) := by
  have e : (V m c main_v1 : S1x1x1024.Idx → BitVec 32)
      = broadcastInDim S1x1x1024 ![0, 2] Facts₀.bcast_S1x1024_S1x1x1024_0_2 (m ((c : Thread nD τ).loc main_arg0)) := by
    dsimp only [Gen.V, Gen.hostOps0]; after_results
  rw [e]
  exact colArr_read _ k i h

theorem V_v2_apply (c : Dev nD) (k : S1x1024x1.Idx) (i : Fin 1024) (h : (k 1).val = i.val) :
    (V m c main_v2 : S1x1024x1.Idx → BitVec 32) k = (m ((c : Thread nD τ).loc main_arg1) : S1x1024.Idx → BitVec 32) (ix2 0 i) := by
  have e : (V m c main_v2 : S1x1024x1.Idx → BitVec 32)
      = broadcastInDim S1x1024x1 ![0, 1] Facts₀.bcast_S1x1024_S1x1024x1_0_1 (m ((c : Thread nD τ).loc main_arg1)) := by
    dsimp only [Gen.V, Gen.hostOps0]; after_results
  rw [e]
  exact rowArr_read _ k i h

theorem V_v3_apply (c : Dev nD) (k : S1x1x1024.Idx) (i : Fin 1024) (h : (k 2).val = i.val) :
    (V m c main_v3 : S1x1x1024.Idx → BitVec 32) k = (m ((c : Thread nD τ).loc main_arg1) : S1x1024.Idx → BitVec 32) (ix2 0 i) := by
  have e : (V m c main_v3 : S1x1x1024.Idx → BitVec 32)
      = broadcastInDim S1x1x1024 ![0, 2] Facts₀.bcast_S1x1024_S1x1x1024_0_2 (m ((c : Thread nD τ).loc main_arg1)) := by
    dsimp only [Gen.V, Gen.hostOps0]; after_results
  rw [e]
  exact colArr_read _ k i h

theorem V_v4_apply (c : Dev nD) (k : S1x1024x1.Idx) (i : Fin 1024) (h : (k 1).val = i.val) :
    (V m c main_v4 : S1x1024x1.Idx → BitVec 32) k = (m ((c : Thread nD τ).loc main_arg2) : S1x1024.Idx → BitVec 32) (ix2 0 i) := by
  have e : (V m c main_v4 : S1x1024x1.Idx → BitVec 32)
      = broadcastInDim S1x1024x1 ![0, 1] Facts₀.bcast_S1x1024_S1x1024x1_0_1 (m ((c : Thread nD τ).loc main_arg2)) := by
    dsimp only [Gen.V, Gen.hostOps0]; after_results
  rw [e]
  exact rowArr_read _ k i h

theorem V_v5_apply (c : Dev nD) (k : S1x1x1024.Idx) (i : Fin 1024) (h : (k 2).val = i.val) :
    (V m c main_v5 : S1x1x1024.Idx → BitVec 32) k = (m ((c : Thread nD τ).loc main_arg2) : S1x1024.Idx → BitVec 32) (ix2 0 i) := by
  have e : (V m c main_v5 : S1x1x1024.Idx → BitVec 32)
      = broadcastInDim S1x1x1024 ![0, 2] Facts₀.bcast_S1x1024_S1x1x1024_0_2 (m ((c : Thread nD τ).loc main_arg2)) := by
    dsimp only [Gen.V, Gen.hostOps0]; after_results
  rw [e]
  exact colArr_read _ k i h

theorem V_v6_apply (c : Dev nD) (k : S1x1024x1.Idx) (i : Fin 1024) (h : (k 1).val = i.val) :
    (V m c main_v6 : S1x1024x1.Idx → BitVec 32) k = (m ((c : Thread nD τ).loc main_arg3) : S1x1024.Idx → BitVec 32) (ix2 0 i) := by
  have e : (V m c main_v6 : S1x1024x1.Idx → BitVec 32)
      = broadcastInDim S1x1024x1 ![0, 1] Facts₀.bcast_S1x1024_S1x1024x1_0_1 (m ((c : Thread nD τ).loc main_arg3)) := by
    dsimp only [Gen.V, Gen.hostOps0]; after_results
  rw [e]
  exact rowArr_read _ k i h

theorem V_v7_apply (c : Dev nD) (k : S1x1x1024.Idx) (i : Fin 1024) (h : (k 2).val = i.val) :
    (V m c main_v7 : S1x1x1024.Idx → BitVec 32) k = (m ((c : Thread nD τ).loc main_arg3) : S1x1024.Idx → BitVec 32) (ix2 0 i) := by
  have e : (V m c main_v7 : S1x1x1024.Idx → BitVec 32)
      = broadcastInDim S1x1x1024 ![0, 2] Facts₀.bcast_S1x1024_S1x1x1024_0_2 (m ((c : Thread nD τ).loc main_arg3)) := by
    dsimp only [Gen.V, Gen.hostOps0]; after_results
  rw [e]
  exact colArr_read _ k i h

theorem V_v8_apply (c : Dev nD) (k : S1x1024x1.Idx) (i : Fin 1024) (h : (k 1).val = i.val) :
    (V m c main_v8 : S1x1024x1.Idx → BitVec 32) k = (m ((c : Thread nD τ).loc main_arg4) : S1x1024.Idx → BitVec 32) (ix2 0 i) := by
  have e : (V m c main_v8 : S1x1024x1.Idx → BitVec 32)
      = broadcastInDim S1x1024x1 ![0, 1] Facts₀.bcast_S1x1024_S1x1024x1_0_1 (m ((c : Thread nD τ).loc main_arg4)) := by
    dsimp only [Gen.V, Gen.hostOps0]; after_results
  rw [e]
  exact rowArr_read _ k i h

theorem V_v9_apply (c : Dev nD) (k : S1x1x1024.Idx) (i : Fin 1024) (h : (k 2).val = i.val) :
    (V m c main_v9 : S1x1x1024.Idx → BitVec 32) k = (m ((c : Thread nD τ).loc main_arg4) : S1x1024.Idx → BitVec 32) (ix2 0 i) := by
  have e : (V m c main_v9 : S1x1x1024.Idx → BitVec 32)
      = broadcastInDim S1x1x1024 ![0, 2] Facts₀.bcast_S1x1024_S1x1x1024_0_2 (m ((c : Thread nD τ).loc main_arg4)) := by
    dsimp only [Gen.V, Gen.hostOps0]; after_results
  rw [e]
  exact colArr_read _ k i h

/-! ## The index maps, decided over the grid -/

/-- The index maps over the 64 grid points: a row window moves with the output's first pair axis, a column window with
    its second, the weight window stays, and the output's block indices are (0, I, J, 0) with I, J < 8. -/
theorem idx_facts : ∀ t : Fin cfg0.N, win0_0.index t (1 : Fin 3) = win0_11.index t (1 : Fin 4)
    ∧ win0_1.index t (2 : Fin 3) = win0_11.index t (2 : Fin 4)
    ∧ win0_2.index t (1 : Fin 3) = win0_11.index t (1 : Fin 4)
    ∧ win0_3.index t (2 : Fin 3) = win0_11.index t (2 : Fin 4)
    ∧ win0_4.index t (1 : Fin 3) = win0_11.index t (1 : Fin 4)
    ∧ win0_5.index t (2 : Fin 3) = win0_11.index t (2 : Fin 4)
    ∧ win0_6.index t (1 : Fin 3) = win0_11.index t (1 : Fin 4)
    ∧ win0_7.index t (2 : Fin 3) = win0_11.index t (2 : Fin 4)
    ∧ win0_8.index t (1 : Fin 3) = win0_11.index t (1 : Fin 4)
    ∧ win0_9.index t (2 : Fin 3) = win0_11.index t (2 : Fin 4)
    ∧ win0_10.index t (0 : Fin 2) = 0
    ∧ win0_10.index t (1 : Fin 2) = 0
    ∧ win0_11.index t (0 : Fin 4) = 0
    ∧ win0_11.index t (3 : Fin 4) = 0
    ∧ win0_11.index t (1 : Fin 4) ≤ 7
    ∧ win0_11.index t (2 : Fin 4) ≤ 7 :=
  (by decide +kernel : ∀ t : Fin grid0.N, _)

/-- Every pair of block indices is some grid point's. -/
theorem idx_onto : ∀ (I J : Fin 8), ∃ t : Fin cfg0.N, win0_11.index t = ![0, I.val, J.val, 0] :=
  (by decide +kernel : ∀ (I J : Fin 8), ∃ t : Fin grid0.N, win0_11.index t = ![0, I.val, J.val, 0])

/-! ## Each input block read where the output block's rectangle says

  Point t's output block is the pairs [128 I, 128 I + 128) x [128 J, 128 J + 128); its row blocks hold the tokens
  128 I + p, its column blocks the tokens 128 J + q, and the weight block is the whole table. -/

theorem blk0_apply (c : Dev nD) (t : Fin cfg0.N) (p : Fin 128) (i : Fin 1024) (hi : i.val = win0_11.index t (1 : Fin 4) * 128 + p.val) :
    (iblk m c 0 t : Vec Ideal S1x128x1 .i32) (ix3 0 p 0) = (m ((c : Thread nD τ).loc main_arg0) : S1x1024.Idx → BitVec 32) (ix2 0 i) := by
  unfold iblk
  rw [View.read_apply]
  refine V_v0_apply m c _ i ?_
  show win0_0.index t (1 : Fin 3) * 128 + 1 * p.val = i.val
  rw [(idx_facts t).1, hi]; omega

theorem blk1_apply (c : Dev nD) (t : Fin cfg0.N) (p : Fin 128) (i : Fin 1024) (hi : i.val = win0_11.index t (2 : Fin 4) * 128 + p.val) :
    (iblk m c 1 t : Vec Ideal S1x1x128 .i32) (ix3 0 0 p) = (m ((c : Thread nD τ).loc main_arg0) : S1x1024.Idx → BitVec 32) (ix2 0 i) := by
  unfold iblk
  rw [View.read_apply]
  refine V_v1_apply m c _ i ?_
  show win0_1.index t (2 : Fin 3) * 128 + 1 * p.val = i.val
  rw [(idx_facts t).2.1, hi]; omega

theorem blk2_apply (c : Dev nD) (t : Fin cfg0.N) (p : Fin 128) (i : Fin 1024) (hi : i.val = win0_11.index t (1 : Fin 4) * 128 + p.val) :
    (iblk m c 2 t : Vec Ideal S1x128x1 .i32) (ix3 0 p 0) = (m ((c : Thread nD τ).loc main_arg1) : S1x1024.Idx → BitVec 32) (ix2 0 i) := by
  unfold iblk
  rw [View.read_apply]
  refine V_v2_apply m c _ i ?_
  show win0_2.index t (1 : Fin 3) * 128 + 1 * p.val = i.val
  rw [(idx_facts t).2.2.1, hi]; omega

theorem blk3_apply (c : Dev nD) (t : Fin cfg0.N) (p : Fin 128) (i : Fin 1024) (hi : i.val = win0_11.index t (2 : Fin 4) * 128 + p.val) :
    (iblk m c 3 t : Vec Ideal S1x1x128 .i32) (ix3 0 0 p) = (m ((c : Thread nD τ).loc main_arg1) : S1x1024.Idx → BitVec 32) (ix2 0 i) := by
  unfold iblk
  rw [View.read_apply]
  refine V_v3_apply m c _ i ?_
  show win0_3.index t (2 : Fin 3) * 128 + 1 * p.val = i.val
  rw [(idx_facts t).2.2.2.1, hi]; omega

theorem blk4_apply (c : Dev nD) (t : Fin cfg0.N) (p : Fin 128) (i : Fin 1024) (hi : i.val = win0_11.index t (1 : Fin 4) * 128 + p.val) :
    (iblk m c 4 t : Vec Ideal S1x128x1 .i32) (ix3 0 p 0) = (m ((c : Thread nD τ).loc main_arg2) : S1x1024.Idx → BitVec 32) (ix2 0 i) := by
  unfold iblk
  rw [View.read_apply]
  refine V_v4_apply m c _ i ?_
  show win0_4.index t (1 : Fin 3) * 128 + 1 * p.val = i.val
  rw [(idx_facts t).2.2.2.2.1, hi]; omega

theorem blk5_apply (c : Dev nD) (t : Fin cfg0.N) (p : Fin 128) (i : Fin 1024) (hi : i.val = win0_11.index t (2 : Fin 4) * 128 + p.val) :
    (iblk m c 5 t : Vec Ideal S1x1x128 .i32) (ix3 0 0 p) = (m ((c : Thread nD τ).loc main_arg2) : S1x1024.Idx → BitVec 32) (ix2 0 i) := by
  unfold iblk
  rw [View.read_apply]
  refine V_v5_apply m c _ i ?_
  show win0_5.index t (2 : Fin 3) * 128 + 1 * p.val = i.val
  rw [(idx_facts t).2.2.2.2.2.1, hi]; omega

theorem blk6_apply (c : Dev nD) (t : Fin cfg0.N) (p : Fin 128) (i : Fin 1024) (hi : i.val = win0_11.index t (1 : Fin 4) * 128 + p.val) :
    (iblk m c 6 t : Vec Ideal S1x128x1 .i32) (ix3 0 p 0) = (m ((c : Thread nD τ).loc main_arg3) : S1x1024.Idx → BitVec 32) (ix2 0 i) := by
  unfold iblk
  rw [View.read_apply]
  refine V_v6_apply m c _ i ?_
  show win0_6.index t (1 : Fin 3) * 128 + 1 * p.val = i.val
  rw [(idx_facts t).2.2.2.2.2.2.1, hi]; omega

theorem blk7_apply (c : Dev nD) (t : Fin cfg0.N) (p : Fin 128) (i : Fin 1024) (hi : i.val = win0_11.index t (2 : Fin 4) * 128 + p.val) :
    (iblk m c 7 t : Vec Ideal S1x1x128 .i32) (ix3 0 0 p) = (m ((c : Thread nD τ).loc main_arg3) : S1x1024.Idx → BitVec 32) (ix2 0 i) := by
  unfold iblk
  rw [View.read_apply]
  refine V_v7_apply m c _ i ?_
  show win0_7.index t (2 : Fin 3) * 128 + 1 * p.val = i.val
  rw [(idx_facts t).2.2.2.2.2.2.2.1, hi]; omega

theorem blk8_apply (c : Dev nD) (t : Fin cfg0.N) (p : Fin 128) (i : Fin 1024) (hi : i.val = win0_11.index t (1 : Fin 4) * 128 + p.val) :
    (iblk m c 8 t : Vec Ideal S1x128x1 .i32) (ix3 0 p 0) = (m ((c : Thread nD τ).loc main_arg4) : S1x1024.Idx → BitVec 32) (ix2 0 i) := by
  unfold iblk
  rw [View.read_apply]
  refine V_v8_apply m c _ i ?_
  show win0_8.index t (1 : Fin 3) * 128 + 1 * p.val = i.val
  rw [(idx_facts t).2.2.2.2.2.2.2.2.1, hi]; omega

theorem blk9_apply (c : Dev nD) (t : Fin cfg0.N) (p : Fin 128) (i : Fin 1024) (hi : i.val = win0_11.index t (2 : Fin 4) * 128 + p.val) :
    (iblk m c 9 t : Vec Ideal S1x1x128 .i32) (ix3 0 0 p) = (m ((c : Thread nD τ).loc main_arg4) : S1x1024.Idx → BitVec 32) (ix2 0 i) := by
  unfold iblk
  rw [View.read_apply]
  refine V_v9_apply m c _ i ?_
  show win0_9.index t (2 : Fin 3) * 128 + 1 * p.val = i.val
  rw [(idx_facts t).2.2.2.2.2.2.2.2.2.1, hi]; omega

theorem blk10_apply (c : Dev nD) (t : Fin cfg0.N) (r : Fin 139) (ch : Fin 128) :
    (iblk m c 10 t : Vec Ideal S139x128 .f32) (ix2 r ch) = (m ((c : Thread nD τ).loc main_arg5) : S139x128.Idx → EReal) (ix2 r ch) := by
  unfold iblk
  rw [View.read_apply]
  show V m c main_arg5 _ = _
  rw [V_main_arg5]
  congr 1
  funext a
  apply Fin.ext
  obtain ⟨-, -, -, -, -, -, -, -, -, -, e0, e1, -⟩ := idx_facts t
  match a with
  | ⟨0, _⟩ => show win0_10.index t (0 : Fin 2) * 139 + 1 * r.val = r.val; rw [e0]; omega
  | ⟨1, _⟩ => show win0_10.index t (1 : Fin 2) * 128 + 1 * ch.val = ch.val; rw [e1]; omega

/-! ## What a point writes back -/

/-- The body's output block at any index of the block: the first coordinate of a block index is 0. -/
theorem out_at (x0 : Vec Ideal S1x128x1 .i32) (x1 : Vec Ideal S1x1x128 .i32) (x2 : Vec Ideal S1x128x1 .i32)
    (x3 : Vec Ideal S1x1x128 .i32) (x4 : Vec Ideal S1x128x1 .i32) (x5 : Vec Ideal S1x1x128 .i32)
    (x6 : Vec Ideal S1x128x1 .i32) (x7 : Vec Ideal S1x1x128 .i32) (x8 : Vec Ideal S1x128x1 .i32)
    (x9 : Vec Ideal S1x1x128 .i32) (x10 : Vec Ideal S139x128 .f32) (k : S1x128x128x128.Idx) :
    out0_11 (F := Ideal) x0 x1 x2 x3 x4 x5 x6 x7 x8 x9 x10 k
      = cell (x0 (ix3 0 (k 1) 0)) (x1 (ix3 0 0 (k 2))) (x2 (ix3 0 (k 1) 0)) (x3 (ix3 0 0 (k 2))) (x4 (ix3 0 (k 1) 0)) (x5 (ix3 0 0 (k 2)))
          (x6 (ix3 0 (k 1) 0)) (x7 (ix3 0 0 (k 2))) (x8 (ix3 0 (k 1) 0)) (x9 (ix3 0 0 (k 2))) (fun r => x10 (ix2 r (k 3))) := by
  have h0 : k 0 = (0 : Fin 1) := Fin.ext (Nat.lt_one_iff.mp (k 0).isLt)
  have hk : k = ix4 (0 : Fin 1) (k 1) (k 2) (k 3) := (eq_ix4 k).trans (congrArg (fun z : Fin 1 => ix4 z (k 1) (k 2) (k 3)) h0)
  exact (congrArg (out0_11 (F := Ideal) x0 x1 x2 x3 x4 x5 x6 x7 x8 x9 x10) hk).trans
    (out_apply x0 x1 x2 x3 x4 x5 x6 x7 x8 x9 x10 (k 1) (k 2) (k 3))

/-- Cells of equal words and equal weight columns are equal. -/
theorem cell_congr {a0 a1 a2 a3 a4 a5 a6 a7 a8 a9 b0 b1 b2 b3 b4 b5 b6 b7 b8 b9 : BitVec 32} {w w' : Fin 139 → EReal}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (hw : w = w') :
    cell a0 a1 a2 a3 a4 a5 a6 a7 a8 a9 w = cell b0 b1 b2 b3 b4 b5 b6 b7 b8 b9 w' := by
  subst h0 h1 h2 h3 h4 h5 h6 h7 h8 h9 hw; rfl

/-- WHAT GRID POINT t WRITES BACK is its block of the specification of the argument arrays. -/
theorem flushed_eq (c : Dev nD) (t : Fin cfg0.N) :
    (dats m 0 c).flushed 11 t = ((cfg0.win 11).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed11]
  funext y
  rw [View.read_apply]
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) y)).trans ?_
  have e3 : win0_11.index t (3 : Fin 4) = 0 := (idx_facts t).2.2.2.2.2.2.2.2.2.2.2.2.2.1
  have hr : (((cfg0.win 11).blk t).view.emb y (1 : Fin 4)).val = win0_11.index t (1 : Fin 4) * 128 + (y 1).val := by
    show win0_11.index t (1 : Fin 4) * 128 + 1 * (y 1).val = _; omega
  have hc : (((cfg0.win 11).blk t).view.emb y (2 : Fin 4)).val = win0_11.index t (2 : Fin 4) * 128 + (y 2).val := by
    show win0_11.index t (2 : Fin 4) * 128 + 1 * (y 2).val = _; omega
  have hch : ((cfg0.win 11).xinj (grid0.coords t) y (3 : Fin 4) : Fin 128) = ((cfg0.win 11).blk t).view.emb y (3 : Fin 4) := by
    apply Fin.ext
    show (y 3).val = win0_11.index t (3 : Fin 4) * 128 + 1 * (y 3).val
    rw [e3]; omega
  exact cell_congr (blk0_apply m c t _ _ hr) (blk1_apply m c t _ _ hc) (blk2_apply m c t _ _ hr) (blk3_apply m c t _ _ hc)
    (blk4_apply m c t _ _ hr) (blk5_apply m c t _ _ hc) (blk6_apply m c t _ _ hr) (blk7_apply m c t _ _ hc)
    (blk8_apply m c t _ _ hr) (blk9_apply m c t _ _ hc)
    (funext fun r => (blk10_apply m c t r _).trans
      (congrArg (fun z : Fin 128 => (m ((c : Thread nD τ).loc main_arg5) : S139x128.Idx → EReal) (ix2 r z)) hch))

/-! ## The cover and the whole array -/

/-- An index of the result array is in point t's block iff each coordinate is in the block's range on its axis. -/
theorem mem_blk (t : Fin cfg0.N) (i : S1x1024x1024x128.Idx) :
    i ∈ ((cfg0.win 11).blk t).view.set ↔ ∀ a : Fin 4, win0_11.index t a * S1x128x128x128.size a ≤ (i a).val
      ∧ (i a).val < win0_11.index t a * S1x128x128x128.size a + S1x128x128x128.size a := by
  show i ∈ ((View.whole main_v10).slice (win0_11.rect t)).set ↔ _
  rw [View.set_slice_whole, Rect.mem_set_unit]
  exact Iff.rfl

/-- THE 64 BLOCKS COVER THE RESULT ARRAY: the pair (i, j) lies in the block of the point with block indices
    (i / 128, j / 128). -/
theorem cover (i : S1x1024x1024x128.Idx) :
    ∃ t : Fin cfg0.N, (cfg0.win 11).flush t = true ∧ i ∈ ((cfg0.win 11).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 128, by omega⟩ ⟨(i 2).val / 128, by omega⟩
  have q0 : win0_11.index t (0 : Fin 4) = 0 := congrFun ht 0
  have q1 : win0_11.index t (1 : Fin 4) = (i 1).val / 128 := congrFun ht 1
  have q2 : win0_11.index t (2 : Fin 4) = (i 2).val / 128 := congrFun ht 2
  have q3 : win0_11.index t (3 : Fin 4) = 0 := congrFun ht 3
  refine ⟨t, flush0_11 t, ?_⟩
  rw [mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 128 ≤ (i 1).val ∧ (i 1).val < win0_11.index t (1 : Fin 4) * 128 + 128; omega
  | ⟨2, _⟩ => show win0_11.index t (2 : Fin 4) * 128 ≤ (i 2).val ∧ (i 2).val < win0_11.index t (2 : Fin 4) * 128 + 128; omega
  | ⟨3, _⟩ => show win0_11.index t (3 : Fin 4) * 128 ≤ (i 3).val ∧ (i 3).val < win0_11.index t (3 : Fin 4) * 128 + 128; omega

/-- THE RESULT ARRAY after the run is the specification of the argument arrays. -/
theorem final (c : Dev nD) : (dats m 0 c).arrAt 11 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 11 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

end Blocks

/-! ## The run, read -/

/-- The program's run re-posted: the result array at the specification of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10)
        = G (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.lean ====
/-
  Pair-bias features: for every pair of tokens three clipped offsets (residue, token, chain) pick three rows of
  a weight table and an entity bit adds a fourth.  The kernel forms the three one-hot rows, lays them side by side
  and multiplies by the table with the entity row left out, adding the entity row afterwards; the reference
  looks the three rows up and adds.  Over the extended reals a sum against a one-hot row is the row picked
  (0 * x = 0 for every x), and addition is commutative and associative, so both programs end at one function of
  the argument arrays (PairSpec.G).  The ideal pass rewrote nothing, so the kernel's idealization is the kernel's
  own text and `preserves` has nothing to state.
-/
import proofs.«408695_j88175678587717_3_alg».proof.Defs
import proofs.«408695_j88175678587717_3_alg».proof.Proof.Gen.Kernel
import proofs.«408695_j88175678587717_3_alg».proof.Proof.Gen.Kernel.Skeleton
import proofs.«408695_j88175678587717_3_alg».proof.Proof.Gen.Kernel.Launch
import proofs.«408695_j88175678587717_3_alg».proof.Proof.Gen.Kernel.Points
import proofs.«408695_j88175678587717_3_alg».proof.Proof.Gen.Kernel.Frame
import proofs.«408695_j88175678587717_3_alg».proof.Proof.Gen.KernelIdeal
import proofs.«408695_j88175678587717_3_alg».proof.Proof.Gen.KernelIdeal.Skeleton
import proofs.«408695_j88175678587717_3_alg».proof.Proof.Gen.KernelIdeal.Launch
import proofs.«408695_j88175678587717_3_alg».proof.Proof.Gen.KernelIdeal.Points
import proofs.«408695_j88175678587717_3_alg».proof.Proof.Gen.KernelIdeal.Frame
import proofs.«408695_j88175678587717_3_alg».proof.Proof.Gen.KernelIdeal.Value
import proofs.«408695_j88175678587717_3_alg».proof.Proof.Gen.ReferenceIdeal
import proofs.«408695_j88175678587717_3_alg».proof.Proof.Gen.Pre_finite_inputs
import proofs.«408695_j88175678587717_3_alg».proof.Proof.PairSpec
import proofs.«408695_j88175678587717_3_alg».proof.Proof.RefTerm
import proofs.«408695_j88175678587717_3_alg».proof.Proof.RefRun
import proofs.«408695_j88175678587717_3_alg».proof.Proof.RefValue
import proofs.«408695_j88175678587717_3_alg».proof.Proof.KernelPay
import proofs.«408695_j88175678587717_3_alg».proof.Proof.KernelBlocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the specification of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact Cert.ReferenceIdeal.Hand.refOut_eq_G _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
